-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x768 : Shape := ⟨3, ![4, 256, 768]⟩
abbrev S4x128 : Shape := ⟨2, ![4, 128]⟩
abbrev S3072x1024 : Shape := ⟨2, ![3072, 1024]⟩
abbrev S1024 : Shape := ⟨1, ![1024]⟩
abbrev S1024x16 : Shape := ⟨2, ![1024, 16]⟩
abbrev S16 : Shape := ⟨1, ![16]⟩
abbrev S_ : Shape := ⟨0, ![]⟩

class Facts : Prop where
  bcast_S_S4x256x768 : S_.BroadcastsInDim S4x256x768 (![] : Fin 0 → Fin S4x256x768.rank)
  reducesTo_S4x256x768_S_d0_1_2 : S4x256x768.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024 : S_.BroadcastsInDim S1024 (![] : Fin 0 → Fin S1024.rank)
  reducesTo_S1024_S_d0 : S1024.ReducesTo [0] S_
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S4x256x768 .f32) (main_arg1 : IVec S4x128 32) (main_arg2 : FVec F S3072x1024 .f32) (main_arg3 : FVec F S1024 .f32) (main_arg4 : FVec F S1024x16 .f32) (main_arg5 : FVec F S16 .f32) : IVec S_ 1 :=
  let main_v0 : FVec F S4x256x768 .f32 := Host.absf main_arg0
  let main_cst : FVec F S_ .f32 := constant S_ .f32 0x7F800000#32
  let main_v1 : FVec F S4x256x768 .f32 := broadcastInDim S4x256x768 ![] bcast_S_S4x256x768 main_cst
  let main_v2 : IVec S4x256x768 1 := cmpf .olt main_v0 main_v1
  let main_c : IVec S_ 1 := constantI S_ 1 1#1
  let main_v3 : IVec S_ 1 := (fun x v => Host.reduce IntOp.andi x v reducesTo_S4x256x768_S_d0_1_2 h_S_) main_v2 main_c
  let main_v4 : FVec F S3072x1024 .f32 := Host.absf main_arg2
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x16 .f32 := Host.absf main_arg4
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg5 main_v13 main_v16
-- ==== Kernel.lean ====
abbrev S4x256x768 : Shape := ⟨3, ![4, 256, 768]⟩
abbrev S4x128 : Shape := ⟨2, ![4, 128]⟩
abbrev S3072x1024 : Shape := ⟨2, ![3072, 1024]⟩
abbrev S1024 : Shape := ⟨1, ![1024]⟩
abbrev S1024x16 : Shape := ⟨2, ![1024, 16]⟩
abbrev S16 : Shape := ⟨1, ![16]⟩
abbrev S4x128x1 : Shape := ⟨3, ![4, 128, 1]⟩
abbrev S_ : Shape := ⟨0, ![]⟩
abbrev S1 : Shape := ⟨1, ![1]⟩
abbrev S1x1x1 : Shape := ⟨3, ![1, 1, 1]⟩
abbrev S4x128x768 : Shape := ⟨3, ![4, 128, 768]⟩
abbrev S768x1024 : Shape := ⟨2, ![768, 1024]⟩
abbrev S4x128x128x16 : Shape := ⟨4, ![4, 128, 128, 16]⟩
abbrev S1x32x768 : Shape := ⟨3, ![1, 32, 768]⟩
abbrev S1x32x32x16 : Shape := ⟨4, ![1, 32, 32, 16]⟩
abbrev S32x768 : Shape := ⟨2, ![32, 768]⟩
abbrev S32x1x768 : Shape := ⟨3, ![32, 1, 768]⟩
abbrev S32x32x768 : Shape := ⟨3, ![32, 32, 768]⟩
abbrev S1024x768 : Shape := ⟨2, ![1024, 768]⟩
abbrev S1024x1024 : Shape := ⟨2, ![1024, 1024]⟩
abbrev S1x1024 : Shape := ⟨2, ![1, 1024]⟩
abbrev S1x16 : Shape := ⟨2, ![1, 16]⟩
abbrev S32x32x16 : Shape := ⟨3, ![32, 32, 16]⟩

abbrev nBuf : Space → Nat
  | .hbm => 37
  | .vmem => 13
  | .smem => 0
  | _ => 0

abbrev bufTy : (tb : Table) → Fin (tcTables nBuf tb) → BufTy
  | .hbm, ⟨0, _⟩ => ⟨S4x256x768, .f32⟩
  | .hbm, ⟨1, _⟩ => ⟨S4x128, .i32⟩
  | .hbm, ⟨2, _⟩ => ⟨S3072x1024, .f32⟩
  | .hbm, ⟨3, _⟩ => ⟨S1024, .f32⟩
  | .hbm, ⟨4, _⟩ => ⟨S1024x16, .f32⟩
  | .hbm, ⟨5, _⟩ => ⟨S16, .f32⟩
  | .hbm, ⟨6, _⟩ => ⟨S4x128x1, .i32⟩
  | .hbm, ⟨7, _⟩ => ⟨S_, .i32⟩
  | .hbm, ⟨8, _⟩ => ⟨S4x128x1, .i32⟩
  | .hbm, ⟨9, _⟩ => ⟨S4x128x1, .i1⟩
  | .hbm, ⟨10, _⟩ => ⟨S_, .i32⟩
  | .hbm, ⟨11, _⟩ => ⟨S4x128x1, .i32⟩
  | .hbm, ⟨12, _⟩ => ⟨S4x128x1, .i32⟩
  | .hbm, ⟨13, _⟩ => ⟨S4x128x1, .i32⟩
  | .hbm, ⟨14, _⟩ => ⟨S1, .i32⟩
  | .hbm, ⟨15, _⟩ => ⟨S_, .i32⟩
  | .hbm, ⟨16, _⟩ => ⟨S4x128x1, .i32⟩
  | .hbm, ⟨17, _⟩ => ⟨S4x128x1, .i1⟩
  | .hbm, ⟨18, _⟩ => ⟨S1x1x1, .i32⟩
  | .hbm, ⟨19, _⟩ => ⟨S4x128x1, .i32⟩
  | .hbm, ⟨20, _⟩ => ⟨S4x128x1, .i1⟩
  | .hbm, ⟨21, _⟩ => ⟨S4x128x1, .i1⟩
  | .hbm, ⟨22, _⟩ => ⟨S_, .i1⟩
  | .hbm, ⟨23, _⟩ => ⟨S4x128, .i1⟩
  | .hbm, ⟨24, _⟩ => ⟨S4x128x768, .f32⟩
  | .hbm, ⟨25, _⟩ => ⟨S4x128x768, .i1⟩
  | .hbm, ⟨26, _⟩ => ⟨S_, .f32⟩
  | .hbm, ⟨27, _⟩ => ⟨S4x128x768, .f32⟩
  | .hbm, ⟨28, _⟩ => ⟨S4x128x768, .f32⟩
  | .hbm, ⟨29, _⟩ => ⟨S4x128x768, .bf16⟩
  | .hbm, ⟨30, _⟩ => ⟨S3072x1024, .bf16⟩
  | .hbm, ⟨31, _⟩ => ⟨S768x1024, .bf16⟩
  | .hbm, ⟨32, _⟩ => ⟨S768x1024, .bf16⟩
  | .hbm, ⟨33, _⟩ => ⟨S768x1024, .bf16⟩
  | .hbm, ⟨34, _⟩ => ⟨S768x1024, .bf16⟩
  | .hbm, ⟨35, _⟩ => ⟨S1024x16, .bf16⟩
  | .hbm, ⟨36, _⟩ => ⟨S4x128x128x16, .f32⟩
  | .local _ .vmem, ⟨0, _⟩ => ⟨S1x32x768, .bf16⟩
  | .local _ .vmem, ⟨1, _⟩ => ⟨S1x32x768, .bf16⟩
  | .local _ .vmem, ⟨2, _⟩ => ⟨S1x32x768, .bf16⟩
  | .local _ .vmem, ⟨3, _⟩ => ⟨S1x32x768, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .bf16⟩
  | .local _ .vmem, ⟨7, _⟩ => ⟨S768x1024, .bf16⟩
  | .local _ .vmem, ⟨8, _⟩ => ⟨S1024, .f32⟩
  | .local _ .vmem, ⟨9, _⟩ => ⟨S1024x16, .bf16⟩
  | .local _ .vmem, ⟨10, _⟩ => ⟨S16, .f32⟩
  | .local _ .vmem, ⟨11, _⟩ => ⟨S1x32x32x16, .f32⟩
  | .local _ .vmem, ⟨12, _⟩ => ⟨S1x32x32x16, .f32⟩
  | _, _ => ⟨S4x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x32x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x32x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1024x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x32x32x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

class Facts₀ : Prop where
  bcast_S4x128_S4x128x1_0_1 : S4x128.BroadcastsInDim S4x128x1 (![0, 1] : Fin 2 → Fin S4x128x1.rank)
  bcast_S_S4x128x1 : S_.BroadcastsInDim S4x128x1 (![] : Fin 0 → Fin S4x128x1.rank)
  bcast_S1_S1x1x1_2 : S1.BroadcastsInDim S1x1x1 (![2] : Fin 1 → Fin S1x1x1.rank)
  bcast_S1x1x1_S4x128x1_0_1_2 : S1x1x1.BroadcastsInDim S4x128x1 (![0, 1, 2] : Fin 3 → Fin S4x128x1.rank)
  reducesTo_S4x128x1_S4x128_d2 : S4x128x1.ReducesTo [2] S4x128
  h_S_ : 0 < S_.numel
  bcast_S4x128_S4x128x768_0_1 : S4x128.BroadcastsInDim S4x128x768 (![0, 1] : Fin 2 → Fin S4x128x768.rank)
  bcast_S_S4x128x768 : S_.BroadcastsInDim S4x128x768 (![] : Fin 0 → Fin S4x128x768.rank)
  bitsLt_bf16_f32 : FTy.bits .bf16 < FTy.bits .f32
  slices_S3072x1024_S768x1024_0_0 : S3072x1024.Slices ![0, 0] S768x1024
  slices_S3072x1024_S768x1024_768_0 : S3072x1024.Slices ![768, 0] S768x1024
  slices_S3072x1024_S768x1024_1536_0 : S3072x1024.Slices ![1536, 0] S768x1024
  slices_S3072x1024_S768x1024_2304_0 : S3072x1024.Slices ![2304, 0] S768x1024
  inb_S1x32x768_S1x32x768_0_0_0 : ∀ a, (![0, 0, 0] : Fin 3 → Nat) a + S1x32x768.size a ≤ S1x32x768.size a
  h_S1x32x768 : 0 < S1x32x768.numel
  shapeCasts_S1x32x768_S32x768 : S1x32x768.ShapeCasts S32x768
  shapeCasts_S32x768_S32x1x768 : S32x768.ShapeCasts S32x1x768
  shapeCasts_S32x1x768_S32x1x768 : S32x1x768.ShapeCasts S32x1x768
  broadcasts_S32x1x768_S32x32x768 : S32x1x768.Broadcasts S32x32x768
  shapeCasts_S32x32x768_S1024x768 : S32x32x768.ShapeCasts S1024x768
  shapeCasts_S32x768_S1x32x768 : S32x768.ShapeCasts S1x32x768
  shapeCasts_S1x32x768_S1x32x768 : S1x32x768.ShapeCasts S1x32x768
  broadcasts_S1x32x768_S32x32x768 : S1x32x768.Broadcasts S32x32x768
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16_S16_0 : ∀ a, (![0] : Fin 1 → Nat) a + S16.size a ≤ S16.size a
  h_S16 : 0 < S16.numel
  shapeCasts_S16_S1x16 : S16.ShapeCasts S1x16
  broadcasts_S1x16_S1024x16 : S1x16.Broadcasts S1024x16
  shapeCasts_S1024x16_S32x32x16 : S1024x16.ShapeCasts S32x32x16
  inb_S1x32x32x16_S1x32x32x16_0_0_0_0 : ∀ a, (![0, 0, 0, 0] : Fin 4 → Nat) a + S1x32x32x16.size a ≤ S1x32x32x16.size a
  h_S1x32x32x16 : 0 < S1x32x32x16.numel
  shapeCasts_S1x32x32x16_S32x32x16 : S1x32x32x16.ShapeCasts S32x32x16
  shapeCasts_S32x32x16_S1x32x32x16 : S32x32x16.ShapeCasts S1x32x32x16
  gather_S4x256x768_S4x128x1_S4x128x768_2_1_0_0_1_2_11768_wf : GatherDims.WF S4x256x768 S4x128x1 S4x128x768 [2] [1] [0] [1] [0] 2 ![1, 1, 768]
  dot_S1024x768_S768x1024_S1024x1024_1_0_0_1_n_n_wf : DotDims.WF S1024x768 S768x1024 S1024x1024 [1] [0] [0] [1] [] []
  dot_S1024x1024_S1024x16_S1024x16_1_0_0_1_n_n_wf : DotDims.WF S1024x1024 S1024x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x768.size a ≤ S4x128x768.size a
  hwx0_0 : ∀ i : grid0.Coords, EltTy.bits .bf16 = 32 ∨ (Rect.block (s := S4x128x768) S1x32x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x768.size a ≤ S4x128x768.size a
  hwx0_1 : ∀ i : grid0.Coords, EltTy.bits .bf16 = 32 ∨ (Rect.block (s := S4x128x768) S1x32x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x1024.size a ≤ S768x1024.size a
  hwx0_2 : ∀ i : grid0.Coords, EltTy.bits .bf16 = 32 ∨ (Rect.block (s := S768x1024) S768x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x1024.size a ≤ S768x1024.size a
  hwx0_3 : ∀ i : grid0.Coords, EltTy.bits .bf16 = 32 ∨ (Rect.block (s := S768x1024) S768x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x1024.size a ≤ S768x1024.size a
  hwx0_4 : ∀ i : grid0.Coords, EltTy.bits .bf16 = 32 ∨ (Rect.block (s := S768x1024) S768x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x1024.size a ≤ S768x1024.size a
  hwx0_5 : ∀ i : grid0.Coords, EltTy.bits .bf16 = 32 ∨ (Rect.block (s := S768x1024) S768x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x16.size a ≤ S1024x16.size a
  hwx0_7 : ∀ i : grid0.Coords, EltTy.bits .bf16 = 32 ∨ (Rect.block (s := S1024x16) S1024x16.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16.size a ≤ S16.size a
  hwx0_8 : ∀ i : grid0.Coords, EltTy.bits .f32 = 32 ∨ (Rect.block (s := S16) S16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x32x32x16.size a ≤ S4x128x128x16.size a
  hwx0_9 : ∀ i : grid0.Coords, EltTy.bits .f32 = 32 ∨ (Rect.block (s := S4x128x128x16) S1x32x32x16.size (cc0_transform_9 i) (hinb0_9 i)).WholeWords (EltTy.packing .f32)

variable [Facts₀]

def gather_S4x256x768_S4x128x1_S4x128x768_2_1_0_0_1_2_11768 : GatherDims S4x256x768 S4x128x1 S4x128x768 where
  offsetDims := [2]
  collapsedSliceDims := [1]
  operandBatchingDims := [0]
  startIndicesBatchingDims := [0]
  startIndexMap := [1]
  indexVectorDim := 2
  sliceSizes := ![1, 1, 768]
  wf := gather_S4x256x768_S4x128x1_S4x128x768_2_1_0_0_1_2_11768_wf
def dot_S1024x768_S768x1024_S1024x1024_1_0_0_1_n_n : DotDims S1024x768 S768x1024 S1024x1024 where
  lhsContracting := [1]
  rhsContracting := [0]
  lhsNonContracting := [0]
  rhsNonContracting := [1]
  lhsBatch := []
  rhsBatch := []
  wf := dot_S1024x768_S768x1024_S1024x1024_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf

abbrev win0_0 : Pipeline.Window sig grid0 :=
  Pipeline.Window.ofSpec (Memref.whole main_v2) S1x32x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x32x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S768x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S768x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S768x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S768x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1024x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x32x32x16.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x256x768 : Shape := ⟨3, ![4, 256, 768]⟩
abbrev S4x128 : Shape := ⟨2, ![4, 128]⟩
abbrev S3072x1024 : Shape := ⟨2, ![3072, 1024]⟩
abbrev S1024 : Shape := ⟨1, ![1024]⟩
abbrev S1024x16 : Shape := ⟨2, ![1024, 16]⟩
abbrev S16 : Shape := ⟨1, ![16]⟩
abbrev S4x128x1 : Shape := ⟨3, ![4, 128, 1]⟩
abbrev S_ : Shape := ⟨0, ![]⟩
abbrev S1 : Shape := ⟨1, ![1]⟩
abbrev S1x1x1 : Shape := ⟨3, ![1, 1, 1]⟩
abbrev S4x128x768 : Shape := ⟨3, ![4, 128, 768]⟩
abbrev S4x128x1x768 : Shape := ⟨4, ![4, 128, 1, 768]⟩
abbrev S4x128x128x768 : Shape := ⟨4, ![4, 128, 128, 768]⟩
abbrev S4x1x128x768 : Shape := ⟨4, ![4, 1, 128, 768]⟩
abbrev S4x128x128x3072 : Shape := ⟨4, ![4, 128, 128, 3072]⟩
abbrev S4x128x128x1024 : Shape := ⟨4, ![4, 128, 128, 1024]⟩
abbrev S1x1x1x1024 : Shape := ⟨4, ![1, 1, 1, 1024]⟩
abbrev S4x128x128x16 : Shape := ⟨4, ![4, 128, 128, 16]⟩
abbrev S1x1x1x16 : Shape := ⟨4, ![1, 1, 1, 16]⟩

abbrev nBuf : Space → Nat
  | .hbm => 45
  | .vmem => 0
  | .smem => 0
  | _ => 0

abbrev bufTy : (tb : Table) → Fin (tcTables nBuf tb) → BufTy
  | .hbm, ⟨0, _⟩ => ⟨S4x256x768, .f32⟩
  | .hbm, ⟨1, _⟩ => ⟨S4x128, .i32⟩
  | .hbm, ⟨2, _⟩ => ⟨S3072x1024, .f32⟩
  | .hbm, ⟨3, _⟩ => ⟨S1024, .f32⟩
  | .hbm, ⟨4, _⟩ => ⟨S1024x16, .f32⟩
  | .hbm, ⟨5, _⟩ => ⟨S16, .f32⟩
  | .hbm, ⟨6, _⟩ => ⟨S4x128x1, .i32⟩
  | .hbm, ⟨7, _⟩ => ⟨S_, .i32⟩
  | .hbm, ⟨8, _⟩ => ⟨S4x128x1, .i32⟩
  | .hbm, ⟨9, _⟩ => ⟨S4x128x1, .i1⟩
  | .hbm, ⟨10, _⟩ => ⟨S_, .i32⟩
  | .hbm, ⟨11, _⟩ => ⟨S4x128x1, .i32⟩
  | .hbm, ⟨12, _⟩ => ⟨S4x128x1, .i32⟩
  | .hbm, ⟨13, _⟩ => ⟨S4x128x1, .i32⟩
  | .hbm, ⟨14, _⟩ => ⟨S1, .i32⟩
  | .hbm, ⟨15, _⟩ => ⟨S_, .i32⟩
  | .hbm, ⟨16, _⟩ => ⟨S4x128x1, .i32⟩
  | .hbm, ⟨17, _⟩ => ⟨S4x128x1, .i1⟩
  | .hbm, ⟨18, _⟩ => ⟨S1x1x1, .i32⟩
  | .hbm, ⟨19, _⟩ => ⟨S4x128x1, .i32⟩
  | .hbm, ⟨20, _⟩ => ⟨S4x128x1, .i1⟩
  | .hbm, ⟨21, _⟩ => ⟨S4x128x1, .i1⟩
  | .hbm, ⟨22, _⟩ => ⟨S_, .i1⟩
  | .hbm, ⟨23, _⟩ => ⟨S4x128, .i1⟩
  | .hbm, ⟨24, _⟩ => ⟨S4x128x768, .f32⟩
  | .hbm, ⟨25, _⟩ => ⟨S4x128x768, .i1⟩
  | .hbm, ⟨26, _⟩ => ⟨S_, .f32⟩
  | .hbm, ⟨27, _⟩ => ⟨S4x128x768, .f32⟩
  | .hbm, ⟨28, _⟩ => ⟨S4x128x768, .f32⟩
  | .hbm, ⟨29, _⟩ => ⟨S4x128x1x768, .f32⟩
  | .hbm, ⟨30, _⟩ => ⟨S4x128x128x768, .f32⟩
  | .hbm, ⟨31, _⟩ => ⟨S4x1x128x768, .f32⟩
  | .hbm, ⟨32, _⟩ => ⟨S4x128x128x768, .f32⟩
  | .hbm, ⟨33, _⟩ => ⟨S4x128x128x768, .f32⟩
  | .hbm, ⟨34, _⟩ => ⟨S4x128x128x768, .f32⟩
  | .hbm, ⟨35, _⟩ => ⟨S4x128x128x3072, .f32⟩
  | .hbm, ⟨36, _⟩ => ⟨S4x128x128x1024, .f32⟩
  | .hbm, ⟨37, _⟩ => ⟨S1x1x1x1024, .f32⟩
  | .hbm, ⟨38, _⟩ => ⟨S4x128x128x1024, .f32⟩
  | .hbm, ⟨39, _⟩ => ⟨S4x128x128x1024, .f32⟩
  | .hbm, ⟨40, _⟩ => ⟨S4x128x128x1024, .f32⟩
  | .hbm, ⟨41, _⟩ => ⟨S4x128x128x16, .f32⟩
  | .hbm, ⟨42, _⟩ => ⟨S1x1x1x16, .f32⟩
  | .hbm, ⟨43, _⟩ => ⟨S4x128x128x16, .f32⟩
  | .hbm, ⟨44, _⟩ => ⟨S4x128x128x16, .f32⟩
  | _, _ => ⟨S4x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩

abbrev nD : Nat := 1
abbrev τ : Topo := Topo.v7x

variable {F : FTy → Type} [FloatOps F]

class Facts₀ : Prop where
  bcast_S4x128_S4x128x1_0_1 : S4x128.BroadcastsInDim S4x128x1 (![0, 1] : Fin 2 → Fin S4x128x1.rank)
  bcast_S_S4x128x1 : S_.BroadcastsInDim S4x128x1 (![] : Fin 0 → Fin S4x128x1.rank)
  bcast_S1_S1x1x1_2 : S1.BroadcastsInDim S1x1x1 (![2] : Fin 1 → Fin S1x1x1.rank)
  bcast_S1x1x1_S4x128x1_0_1_2 : S1x1x1.BroadcastsInDim S4x128x1 (![0, 1, 2] : Fin 3 → Fin S4x128x1.rank)
  reducesTo_S4x128x1_S4x128_d2 : S4x128x1.ReducesTo [2] S4x128
  h_S_ : 0 < S_.numel
  bcast_S4x128_S4x128x768_0_1 : S4x128.BroadcastsInDim S4x128x768 (![0, 1] : Fin 2 → Fin S4x128x768.rank)
  bcast_S_S4x128x768 : S_.BroadcastsInDim S4x128x768 (![] : Fin 0 → Fin S4x128x768.rank)
  bcast_S4x128x768_S4x128x1x768_0_1_3 : S4x128x768.BroadcastsInDim S4x128x1x768 (![0, 1, 3] : Fin 3 → Fin S4x128x1x768.rank)
  bcast_S4x128x1x768_S4x128x128x768_0_1_2_3 : S4x128x1x768.BroadcastsInDim S4x128x128x768 (![0, 1, 2, 3] : Fin 4 → Fin S4x128x128x768.rank)
  bcast_S4x128x768_S4x1x128x768_0_2_3 : S4x128x768.BroadcastsInDim S4x1x128x768 (![0, 2, 3] : Fin 3 → Fin S4x1x128x768.rank)
  bcast_S4x1x128x768_S4x128x128x768_0_1_2_3 : S4x1x128x768.BroadcastsInDim S4x128x128x768 (![0, 1, 2, 3] : Fin 4 → Fin S4x128x128x768.rank)
  concatenates_S4x128x128x768_S4x128x128x768_S4x128x128x768_S4x128x128x768_S4x128x128x3072_d3 : Shape.Concatenates [S4x128x128x768, S4x128x128x768, S4x128x128x768, S4x128x128x768] S4x128x128x3072 3
  bcast_S1024_S1x1x1x1024_3 : S1024.BroadcastsInDim S1x1x1x1024 (![3] : Fin 1 → Fin S1x1x1x1024.rank)
  bcast_S1x1x1x1024_S4x128x128x1024_0_1_2_3 : S1x1x1x1024.BroadcastsInDim S4x128x128x1024 (![0, 1, 2, 3] : Fin 4 → Fin S4x128x128x1024.rank)
  bcast_S16_S1x1x1x16_3 : S16.BroadcastsInDim S1x1x1x16 (![3] : Fin 1 → Fin S1x1x1x16.rank)
  bcast_S1x1x1x16_S4x128x128x16_0_1_2_3 : S1x1x1x16.BroadcastsInDim S4x128x128x16 (![0, 1, 2, 3] : Fin 4 → Fin S4x128x128x16.rank)
  gather_S4x256x768_S4x128x1_S4x128x768_2_1_0_0_1_2_11768_wf : GatherDims.WF S4x256x768 S4x128x1 S4x128x768 [2] [1] [0] [1] [0] 2 ![1, 1, 768]
  dot_S4x128x128x3072_S3072x1024_S4x128x128x1024_3_0_012_1_n_n_wf : DotDims.WF S4x128x128x3072 S3072x1024 S4x128x128x1024 [3] [0] [0, 1, 2] [1] [] []
  dot_S4x128x128x1024_S1024x16_S4x128x128x16_3_0_012_1_n_n_wf : DotDims.WF S4x128x128x1024 S1024x16 S4x128x128x16 [3] [0] [0, 1, 2] [1] [] []

variable [Facts₀]

def gather_S4x256x768_S4x128x1_S4x128x768_2_1_0_0_1_2_11768 : GatherDims S4x256x768 S4x128x1 S4x128x768 where
  offsetDims := [2]
  collapsedSliceDims := [1]
  operandBatchingDims := [0]
  startIndicesBatchingDims := [0]
  startIndexMap := [1]
  indexVectorDim := 2
  sliceSizes := ![1, 1, 768]
  wf := gather_S4x256x768_S4x128x1_S4x128x768_2_1_0_0_1_2_11768_wf
def dot_S4x128x128x3072_S3072x1024_S4x128x128x1024_3_0_012_1_n_n : DotDims S4x128x128x3072 S3072x1024 S4x128x128x1024 where
  lhsContracting := [3]
  rhsContracting := [0]
  lhsNonContracting := [0, 1, 2]
  rhsNonContracting := [1]
  lhsBatch := []
  rhsBatch := []
  wf := dot_S4x128x128x3072_S3072x1024_S4x128x128x1024_3_0_012_1_n_n_wf
def dot_S4x128x128x1024_S1024x16_S4x128x128x16_3_0_012_1_n_n : DotDims S4x128x128x1024 S1024x16 S4x128x128x16 where
  lhsContracting := [3]
  rhsContracting := [0]
  lhsNonContracting := [0, 1, 2]
  rhsNonContracting := [1]
  lhsBatch := []
  rhsBatch := []
  wf := dot_S4x128x128x1024_S1024x16_S4x128x128x16_3_0_012_1_n_n_wf

class Facts : Prop extends Facts₀ where

variable [Facts]
-- ==== Proof.KernelFrame.lean ====
/-
  The frame of `Kernel`: every weakly fair execution of @main terminates, nothing faults, and the argument
  arrays end as launched.

  @main gathers the rows `con[b, n, :] = all_hidden[b, starts[b, n], :]` on the host, slices the first-layer weight
  into its four row groups, and launches ONE kernel region on a 4 x 4 x 4 grid. At point (b, i, j) the body loads the
  32 rows `con[b, 32 i ..]` (window 0) and the 32 rows `con[b, 32 j ..]` (window 1), the four weight groups, the two
  biases and the second-layer weight, and stores the 32 x 32 x 16 block of pairwise scores; it keeps nothing between
  points and names no buffer of its own.

  Windows 0 and 1 read ONE array (`con`, at different blocks). Both only read it, so the array's full share is dealt
  in two halves, one to each window; every other array belongs to one window and is held whole. That is the one
  point where this launch differs from a launch over pairwise distinct arrays; the rest is: what each staging buffer
  holds when the body runs (an input window: its block of the array, fetched at this point or not), what the body
  leaves (the inputs in place, the output at the one stored value), and reading the arguments back at the end.
-/
import proofs.«156064_j13993003450895_1_alg».proof.Proof.Gen.Kernel.Launch
import proofs.«156064_j13993003450895_1_alg».proof.Proof.Gen.Kernel.Skeleton
import proofs.«156064_j13993003450895_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Pairwise

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the host operations (the index
    column, the gather with its range mask, the format changes and the four weight slices). -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is its three stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-! No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not: where it is not
    fetched its block index has not moved since the point before, and the body left the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take a whole buffer -/

abbrev rCon : Rect S1x32x768 := Rect.unit (s := S1x32x768) ![0, 0, 0] S1x32x768.size inb_S1x32x768_S1x32x768_0_0_0
abbrev rW : Rect S768x1024 := Rect.unit (s := S768x1024) ![0, 0] S768x1024.size inb_S768x1024_S768x1024_0_0
abbrev rB1 : Rect S1024 := Rect.unit (s := S1024) ![0] S1024.size inb_S1024_S1024_0
abbrev rW2 : Rect S1024x16 := Rect.unit (s := S1024x16) ![0, 0] S1024x16.size inb_S1024x16_S1024x16_0_0
abbrev rB2 : Rect S16 := Rect.unit (s := S16) ![0] S16.size inb_S16_S16_0
abbrev rOut : Rect S1x32x32x16 := Rect.unit (s := S1x32x32x16) ![0, 0, 0, 0] S1x32x32x16.size inb_S1x32x32x16_S1x32x32x16_0_0_0_0

/-- What the body leaves in the output's staging buffer, from the nine input blocks: its one store, of the scores
    computed from the hidden layer, over the whole buffer. -/
def outBlock (x0 x1 : Vec F S1x32x768 .bf16) (x2 x3 x4 x5 : Vec F S768x1024 .bf16) (x6 : Vec F S1024 .f32)
    (x7 : Vec F S1024x16 .bf16) (x8 : Vec F S16 .f32) : Vec F S1x32x32x16 .f32 :=
  View.canon [⟨rOut, k0_pay1 (k0_pay2 (View.ld x0 rCon) (View.ld x1 rCon) (View.ld x2 rW) (View.ld x3 rW) (View.ld x4 rW) (View.ld x5 rW) (View.ld x6 rB1))
    (View.ld x7 rW2) (View.ld x8 rB2)⟩]

/-- The store covers the buffer. -/
theorem outCover (p0 : Vec F S1x32x32x16 .f32) (y : S1x32x32x16.Idx) :
    ∃ pc ∈ ([⟨rOut, p0⟩] : List (View.Piece (Elt F) S1x32x32x16 .f32)), y ∈ pc.1.set :=
  View.cover_of_tiled [⟨rOut, p0⟩] S1x32x32x16.size (by rfl) y

/-! ## The body's triple -/

set_option maxHeartbeats 1000000 in
/-- The kernel body on whole staging memrefs, the inputs' at contents `x0 … x8` and the output's at anything, runs to
    the continuation holding the inputs' as they were and the output's at `outBlock` of them. -/
theorem sound_kernel (c : Dev nD) (E : Set ℕ) (i : grid0.Coords)
    (a0 : Memref sig .tc .vmem S1x32x768 .bf16) (h0 : a0.IsWhole) (a1 : Memref sig .tc .vmem S1x32x768 .bf16) (h1 : a1.IsWhole)
    (a2 : Memref sig .tc .vmem S768x1024 .bf16) (h2 : a2.IsWhole) (a3 : Memref sig .tc .vmem S768x1024 .bf16) (h3 : a3.IsWhole)
    (a4 : Memref sig .tc .vmem S768x1024 .bf16) (h4 : a4.IsWhole) (a5 : Memref sig .tc .vmem S768x1024 .bf16) (h5 : a5.IsWhole)
    (a6 : Memref sig .tc .vmem S1024 .f32) (h6 : a6.IsWhole) (a7 : Memref sig .tc .vmem S1024x16 .bf16) (h7 : a7.IsWhole)
    (a8 : Memref sig .tc .vmem S16 .f32) (h8 : a8.IsWhole) (a9 : Memref sig .tc .vmem S1x32x32x16 .f32) (h9 : a9.IsWhole)
    (x0 x1 : Vec F S1x32x768 .bf16) (x2 x3 x4 x5 : Vec F S768x1024 .bf16) (x6 : Vec F S1024 .f32)
    (x7 : Vec F S1024x16 .bf16) (x8 : Vec F S16 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7 ∗ owns (c : Thread nD τ) a8 fullShare x8
        ∗ (∃ d, owns (c : Thread nD τ) a9 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare x7 ∗ owns (c : Thread nD τ) a8 fullShare x8
            ∗ owns (c : Thread nD τ) a9 fullShare (outBlock x0 x1 x2 x3 x4 x5 x6 x7 x8)) -∗ K ⟨⟩))
      ⊢ wp frame (wpE (defs₀ (F := F)) Variants.none c none) E (cc0__phrase_kernel i a0 h0 a1 h1 a2 h2 a3 h3 a4 h4 a5 h5 a6 h6 a7 h7 a8 h8 a9 h9) K := by
  simp only [cc0__phrase_kernel_eq_skeleton]; unfold cc0__phrase_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (outCover _)

/-! ## The pipeline's proof data -/

/-- The proof data of the pipeline on core `c`: the arrays as the region finds them; after the body at point `t` each
    input's buffer at its block and the output's at `outBlock` of the input blocks; the invariant is the core's scoped
    buffers that are no staging buffer (the body touches none); nothing owed. The array the two row windows share is
    held in halves, every other input array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: each input's buffer holds its block, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry: the shared array in halves -/

/-- Window `w`'s array buffer, whole, at share `q`, at the contents the region finds. -/
abbrev arrPt (c : Dev nD) (w : Fin 10) (q : PosShare TreeShare) : sProp 𝕄 :=
  (((c : Thread nD τ).loc (Pipeline.arrRef spec0 w)) ↦{q} V m c (Pipeline.arrRef spec0 w))

/-- The distinct buffers behind the ten windows' arrays: nine, the gathered rows (windows 0 and 1) counted once. -/
theorem arr_image : Finset.univ.image (Pipeline.arrRef spec0)
    = ([Pipeline.arrRef spec0 0, Pipeline.arrRef spec0 2, Pipeline.arrRef spec0 3, Pipeline.arrRef spec0 4, Pipeline.arrRef spec0 5,
        Pipeline.arrRef spec0 6, Pipeline.arrRef spec0 7, Pipeline.arrRef spec0 8, Pipeline.arrRef spec0 9] : List (Ref sig .tc)).toFinset := by
  decide

/-- What the launch hands the pipeline of the core's unscoped buffers: those nine, each whole. -/
theorem arrBufs_eq (c : Dev nD) :
    (Pipeline.arrBufs (Ix := Unit) (Name := ℕ) (U := UR sig nD τ) (Lvl := ℕ) spec0 c (V m c) : sProp 𝕄)
      = iprop(arrPt m c 0 fullShare ∗ arrPt m c 2 fullShare ∗ arrPt m c 3 fullShare ∗ arrPt m c 4 fullShare ∗ arrPt m c 5 fullShare
        ∗ arrPt m c 6 fullShare ∗ arrPt m c 7 fullShare ∗ arrPt m c 8 fullShare ∗ arrPt m c 9 fullShare) :=
  bigSep_eq_bigSepL_of_eq [Pipeline.arrRef spec0 0, Pipeline.arrRef spec0 2, Pipeline.arrRef spec0 3, Pipeline.arrRef spec0 4, Pipeline.arrRef spec0 5,
    Pipeline.arrRef spec0 6, Pipeline.arrRef spec0 7, Pipeline.arrRef spec0 8, Pipeline.arrRef spec0 9] arr_image (by decide) _

/-- One window's array in the pipeline's own spelling is `arrPt` at the window's share: the array is a whole buffer. -/
theorem arr_at (c : Dev nD) (w : Fin 10) (q : PosShare TreeShare) (hq : (dats m 0 c).share w = q) :
    ((((cfg0.win w).arr.view.loc (c : Thread nD τ)) ↦[(cfg0.win w).arr.view.set]{(dats m 0 c).share w} (dats m 0 c).arrAt w 0) : sProp 𝕄)
      = arrPt m c w q := by
  rw [(arr_whole0 w).set_eq_univ, hq]
  rfl

/-- The pipeline's arrays at entry, window by window: the two row windows hold a half each, the others all. -/
theorem arrays_chain (c : Dev nD) :
    (dats m 0 c).arrays (fun w => (dats m 0 c).arrAt w 0)
      = iprop(arrPt m c 0 fullShare.left ∗ arrPt m c 1 fullShare.right ∗ arrPt m c 2 fullShare ∗ arrPt m c 3 fullShare ∗ arrPt m c 4 fullShare
        ∗ arrPt m c 5 fullShare ∗ arrPt m c 6 fullShare ∗ arrPt m c 7 fullShare ∗ arrPt m c 8 fullShare ∗ arrPt m c 9 fullShare) := by
  unfold Dat.arrays
  rw [bigSep_W0]
  rw [arr_at m c 0 fullShare.left rfl, arr_at m c 1 fullShare.right rfl, arr_at m c 2 fullShare rfl, arr_at m c 3 fullShare rfl,
    arr_at m c 4 fullShare rfl, arr_at m c 5 fullShare rfl, arr_at m c 6 fullShare rfl, arr_at m c 7 fullShare rfl,
    arr_at m c 8 fullShare rfl, arr_at m c 9 fullShare rfl]

/-- Two names of one buffer give one points-to. -/
theorem arrPt_congr (c : Dev nD) (q : PosShare TreeShare) {b b' : Ref sig .tc} (h : b = b') :
    ((((c : Thread nD τ).loc b) ↦{q} V m c b) : sProp 𝕄) = (((c : Thread nD τ).loc b') ↦{q} V m c b') := by
  subst h; rfl

/-- The pipeline's arrays at entry from those buffers: the gathered rows' full share splits into the two halves the
    two row windows hold; every other array goes whole to its one window. -/
theorem hsplit (c : Dev nD) :
    (Pipeline.arrBufs (Ix := Unit) (Name := ℕ) (U := UR sig nD τ) (Lvl := ℕ) spec0 c (V m c) : sProp 𝕄)
      ⊢ (dats m 0 c).arrays fun w => (dats m 0 c).arrAt w 0 := by
  rw [arrBufs_eq, arrays_chain]
  rw [show arrPt m c 1 fullShare.right = arrPt m c 0 fullShare.right from arrPt_congr m c fullShare.right rfl]
  refine (sep_mono (pointsTo_share (PosShare.mem_left_op_right fullShare)).1 .rfl).trans ?_
  iintro ⟨⟨H0l, H0r⟩, H2, H3, H4, H5, H6, H7, H8, H9⟩
  isplitl [H0l]; · iexact H0l
  isplitl [H0r]; · iexact H0r
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The run and the frame -/

set_option backward.isDefEq.respectTransparency.types false in
/-- From any memory with zero counters, every weakly fair execution of @main terminates, and every final state has
    every array of the pipeline at what the write-backs leave (`Dat.arrAt`) and every other unscoped buffer as the
    region found it. The launch is the one for windows that may share an array; what it asks beyond the body
    obligation: the arrays at entry (`hsplit`), and that the unscoped buffers no window stages pass by untouched. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = Pipeline.scopedRest (Ix := Unit) (Name := ℕ) (U := UR sig nD τ) (Lvl := ℕ) (Val := Elt F) (cfgs 0).spec c from rfl]
      iintro ⟨-, H⟩; iexact H)
    (hout := fun c => by
      rw [show (dats m 0 c).Φ (Fin.last (cfgs 0).N) = Pipeline.scopedRest (Ix := Unit) (Name := ℕ) (U := UR sig nD τ) (Lvl := ℕ) (Val := Elt F) (cfgs 0).spec c from rfl]
      iintro H; isplitr; · iempintro
      iexact H)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- info: 'Cert.Kernel.Pairwise.run_main' depends on axioms: [propext, Classical.choice, Quot.sound] -/
#guard_msgs in #print axioms run_main

/-- Each argument array after a run to the post above is as launched — the two biases are arrays of input windows,
    never written; the other four no window stages and no host operation writes. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 6).trans (((dats m 0 c).arrAt_in 6 rfl _).trans ((A_eq m c 6).trans (V_main_arg3 m c))),
    ((h c).2 main_arg4 (Pipeline.mem_restRefs_of main_arg4 (by decide) (by decide))).trans (V_main_arg4 m c),
    ((h c).1 8).trans (((dats m 0 c).arrAt_in 8 rfl _).trans ((A_eq m c 8).trans (V_main_arg5 m c)))⟩

/-- THE FRAME: the run ends, nothing faults, and each argument array is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => kept_args m r h c) (run_main m ρ)

end Cert.Kernel.Pairwise

end
-- ==== Proof.KernelIdealFrame.lean ====
/-
  The frame of `KernelIdeal`: every weakly fair execution of @main terminates, nothing faults, and the argument
  arrays end as launched.

  @main gathers the rows `con[b, n, :] = all_hidden[b, starts[b, n], :]` on the host, slices the first-layer weight
  into its four row groups, and launches ONE kernel region on a 4 x 4 x 4 grid. At point (b, i, j) the body loads the
  32 rows `con[b, 32 i ..]` (window 0) and the 32 rows `con[b, 32 j ..]` (window 1), the four weight groups, the two
  biases and the second-layer weight, and stores the 32 x 32 x 16 block of pairwise scores; it keeps nothing between
  points and names no buffer of its own.

  Windows 0 and 1 read ONE array (`con`, at different blocks). Both only read it, so the array's full share is dealt
  in two halves, one to each window; every other array belongs to one window and is held whole. That is the one
  point where this launch differs from a launch over pairwise distinct arrays; the rest is: what each staging buffer
  holds when the body runs (an input window: its block of the array, fetched at this point or not), what the body
  leaves (the inputs in place, the output at the one stored value), and reading the arguments back at the end.
-/
import proofs.«156064_j13993003450895_1_alg».proof.Proof.Gen.KernelIdeal.Launch
import proofs.«156064_j13993003450895_1_alg».proof.Proof.Gen.KernelIdeal.Skeleton
import proofs.«156064_j13993003450895_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Pairwise

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the host operations (the index
    column, the gather with its range mask, the format changes and the four weight slices). -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is its three stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-! No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not: where it is not
    fetched its block index has not moved since the point before, and the body left the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take a whole buffer -/

abbrev rCon : Rect S1x32x768 := Rect.unit (s := S1x32x768) ![0, 0, 0] S1x32x768.size inb_S1x32x768_S1x32x768_0_0_0
abbrev rW : Rect S768x1024 := Rect.unit (s := S768x1024) ![0, 0] S768x1024.size inb_S768x1024_S768x1024_0_0
abbrev rB1 : Rect S1024 := Rect.unit (s := S1024) ![0] S1024.size inb_S1024_S1024_0
abbrev rW2 : Rect S1024x16 := Rect.unit (s := S1024x16) ![0, 0] S1024x16.size inb_S1024x16_S1024x16_0_0
abbrev rB2 : Rect S16 := Rect.unit (s := S16) ![0] S16.size inb_S16_S16_0
abbrev rOut : Rect S1x32x32x16 := Rect.unit (s := S1x32x32x16) ![0, 0, 0, 0] S1x32x32x16.size inb_S1x32x32x16_S1x32x32x16_0_0_0_0

/-- What the body leaves in the output's staging buffer, from the nine input blocks: its one store, of the scores
    computed from the hidden layer, over the whole buffer. -/
def outBlock (x0 x1 : Vec F S1x32x768 .bf16) (x2 x3 x4 x5 : Vec F S768x1024 .bf16) (x6 : Vec F S1024 .f32)
    (x7 : Vec F S1024x16 .bf16) (x8 : Vec F S16 .f32) : Vec F S1x32x32x16 .f32 :=
  View.canon [⟨rOut, k0_pay1 (k0_pay2 (View.ld x0 rCon) (View.ld x1 rCon) (View.ld x2 rW) (View.ld x3 rW) (View.ld x4 rW) (View.ld x5 rW) (View.ld x6 rB1))
    (View.ld x7 rW2) (View.ld x8 rB2)⟩]

/-- The store covers the buffer. -/
theorem outCover (p0 : Vec F S1x32x32x16 .f32) (y : S1x32x32x16.Idx) :
    ∃ pc ∈ ([⟨rOut, p0⟩] : List (View.Piece (Elt F) S1x32x32x16 .f32)), y ∈ pc.1.set :=
  View.cover_of_tiled [⟨rOut, p0⟩] S1x32x32x16.size (by rfl) y

/-! ## The body's triple -/

set_option maxHeartbeats 1000000 in
/-- The kernel body on whole staging memrefs, the inputs' at contents `x0 … x8` and the output's at anything, runs to
    the continuation holding the inputs' as they were and the output's at `outBlock` of them. -/
theorem sound_kernel (c : Dev nD) (E : Set ℕ) (i : grid0.Coords)
    (a0 : Memref sig .tc .vmem S1x32x768 .bf16) (h0 : a0.IsWhole) (a1 : Memref sig .tc .vmem S1x32x768 .bf16) (h1 : a1.IsWhole)
    (a2 : Memref sig .tc .vmem S768x1024 .bf16) (h2 : a2.IsWhole) (a3 : Memref sig .tc .vmem S768x1024 .bf16) (h3 : a3.IsWhole)
    (a4 : Memref sig .tc .vmem S768x1024 .bf16) (h4 : a4.IsWhole) (a5 : Memref sig .tc .vmem S768x1024 .bf16) (h5 : a5.IsWhole)
    (a6 : Memref sig .tc .vmem S1024 .f32) (h6 : a6.IsWhole) (a7 : Memref sig .tc .vmem S1024x16 .bf16) (h7 : a7.IsWhole)
    (a8 : Memref sig .tc .vmem S16 .f32) (h8 : a8.IsWhole) (a9 : Memref sig .tc .vmem S1x32x32x16 .f32) (h9 : a9.IsWhole)
    (x0 x1 : Vec F S1x32x768 .bf16) (x2 x3 x4 x5 : Vec F S768x1024 .bf16) (x6 : Vec F S1024 .f32)
    (x7 : Vec F S1024x16 .bf16) (x8 : Vec F S16 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7 ∗ owns (c : Thread nD τ) a8 fullShare x8
        ∗ (∃ d, owns (c : Thread nD τ) a9 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare x7 ∗ owns (c : Thread nD τ) a8 fullShare x8
            ∗ owns (c : Thread nD τ) a9 fullShare (outBlock x0 x1 x2 x3 x4 x5 x6 x7 x8)) -∗ K ⟨⟩))
      ⊢ wp frame (wpE (defs₀ (F := F)) Variants.none c none) E (cc0__phrase_kernel i a0 h0 a1 h1 a2 h2 a3 h3 a4 h4 a5 h5 a6 h6 a7 h7 a8 h8 a9 h9) K := by
  simp only [cc0__phrase_kernel_eq_skeleton]; unfold cc0__phrase_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (outCover _)

/-! ## The pipeline's proof data -/

/-- The proof data of the pipeline on core `c`: the arrays as the region finds them; after the body at point `t` each
    input's buffer at its block and the output's at `outBlock` of the input blocks; the invariant is the core's scoped
    buffers that are no staging buffer (the body touches none); nothing owed. The array the two row windows share is
    held in halves, every other input array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: each input's buffer holds its block, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry: the shared array in halves -/

/-- Window `w`'s array buffer, whole, at share `q`, at the contents the region finds. -/
abbrev arrPt (c : Dev nD) (w : Fin 10) (q : PosShare TreeShare) : sProp 𝕄 :=
  (((c : Thread nD τ).loc (Pipeline.arrRef spec0 w)) ↦{q} V m c (Pipeline.arrRef spec0 w))

/-- The distinct buffers behind the ten windows' arrays: nine, the gathered rows (windows 0 and 1) counted once. -/
theorem arr_image : Finset.univ.image (Pipeline.arrRef spec0)
    = ([Pipeline.arrRef spec0 0, Pipeline.arrRef spec0 2, Pipeline.arrRef spec0 3, Pipeline.arrRef spec0 4, Pipeline.arrRef spec0 5,
        Pipeline.arrRef spec0 6, Pipeline.arrRef spec0 7, Pipeline.arrRef spec0 8, Pipeline.arrRef spec0 9] : List (Ref sig .tc)).toFinset := by
  decide

/-- What the launch hands the pipeline of the core's unscoped buffers: those nine, each whole. -/
theorem arrBufs_eq (c : Dev nD) :
    (Pipeline.arrBufs (Ix := Unit) (Name := ℕ) (U := UR sig nD τ) (Lvl := ℕ) spec0 c (V m c) : sProp 𝕄)
      = iprop(arrPt m c 0 fullShare ∗ arrPt m c 2 fullShare ∗ arrPt m c 3 fullShare ∗ arrPt m c 4 fullShare ∗ arrPt m c 5 fullShare
        ∗ arrPt m c 6 fullShare ∗ arrPt m c 7 fullShare ∗ arrPt m c 8 fullShare ∗ arrPt m c 9 fullShare) :=
  bigSep_eq_bigSepL_of_eq [Pipeline.arrRef spec0 0, Pipeline.arrRef spec0 2, Pipeline.arrRef spec0 3, Pipeline.arrRef spec0 4, Pipeline.arrRef spec0 5,
    Pipeline.arrRef spec0 6, Pipeline.arrRef spec0 7, Pipeline.arrRef spec0 8, Pipeline.arrRef spec0 9] arr_image (by decide) _

/-- One window's array in the pipeline's own spelling is `arrPt` at the window's share: the array is a whole buffer. -/
theorem arr_at (c : Dev nD) (w : Fin 10) (q : PosShare TreeShare) (hq : (dats m 0 c).share w = q) :
    ((((cfg0.win w).arr.view.loc (c : Thread nD τ)) ↦[(cfg0.win w).arr.view.set]{(dats m 0 c).share w} (dats m 0 c).arrAt w 0) : sProp 𝕄)
      = arrPt m c w q := by
  rw [(arr_whole0 w).set_eq_univ, hq]
  rfl

/-- The pipeline's arrays at entry, window by window: the two row windows hold a half each, the others all. -/
theorem arrays_chain (c : Dev nD) :
    (dats m 0 c).arrays (fun w => (dats m 0 c).arrAt w 0)
      = iprop(arrPt m c 0 fullShare.left ∗ arrPt m c 1 fullShare.right ∗ arrPt m c 2 fullShare ∗ arrPt m c 3 fullShare ∗ arrPt m c 4 fullShare
        ∗ arrPt m c 5 fullShare ∗ arrPt m c 6 fullShare ∗ arrPt m c 7 fullShare ∗ arrPt m c 8 fullShare ∗ arrPt m c 9 fullShare) := by
  unfold Dat.arrays
  rw [bigSep_W0]
  rw [arr_at m c 0 fullShare.left rfl, arr_at m c 1 fullShare.right rfl, arr_at m c 2 fullShare rfl, arr_at m c 3 fullShare rfl,
    arr_at m c 4 fullShare rfl, arr_at m c 5 fullShare rfl, arr_at m c 6 fullShare rfl, arr_at m c 7 fullShare rfl,
    arr_at m c 8 fullShare rfl, arr_at m c 9 fullShare rfl]

/-- Two names of one buffer give one points-to. -/
theorem arrPt_congr (c : Dev nD) (q : PosShare TreeShare) {b b' : Ref sig .tc} (h : b = b') :
    ((((c : Thread nD τ).loc b) ↦{q} V m c b) : sProp 𝕄) = (((c : Thread nD τ).loc b') ↦{q} V m c b') := by
  subst h; rfl

/-- The pipeline's arrays at entry from those buffers: the gathered rows' full share splits into the two halves the
    two row windows hold; every other array goes whole to its one window. -/
theorem hsplit (c : Dev nD) :
    (Pipeline.arrBufs (Ix := Unit) (Name := ℕ) (U := UR sig nD τ) (Lvl := ℕ) spec0 c (V m c) : sProp 𝕄)
      ⊢ (dats m 0 c).arrays fun w => (dats m 0 c).arrAt w 0 := by
  rw [arrBufs_eq, arrays_chain]
  rw [show arrPt m c 1 fullShare.right = arrPt m c 0 fullShare.right from arrPt_congr m c fullShare.right rfl]
  refine (sep_mono (pointsTo_share (PosShare.mem_left_op_right fullShare)).1 .rfl).trans ?_
  iintro ⟨⟨H0l, H0r⟩, H2, H3, H4, H5, H6, H7, H8, H9⟩
  isplitl [H0l]; · iexact H0l
  isplitl [H0r]; · iexact H0r
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The run and the frame -/

set_option backward.isDefEq.respectTransparency.types false in
/-- From any memory with zero counters, every weakly fair execution of @main terminates, and every final state has
    every array of the pipeline at what the write-backs leave (`Dat.arrAt`) and every other unscoped buffer as the
    region found it. The launch is the one for windows that may share an array; what it asks beyond the body
    obligation: the arrays at entry (`hsplit`), and that the unscoped buffers no window stages pass by untouched. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = Pipeline.scopedRest (Ix := Unit) (Name := ℕ) (U := UR sig nD τ) (Lvl := ℕ) (Val := Elt F) (cfgs 0).spec c from rfl]
      iintro ⟨-, H⟩; iexact H)
    (hout := fun c => by
      rw [show (dats m 0 c).Φ (Fin.last (cfgs 0).N) = Pipeline.scopedRest (Ix := Unit) (Name := ℕ) (U := UR sig nD τ) (Lvl := ℕ) (Val := Elt F) (cfgs 0).spec c from rfl]
      iintro H; isplitr; · iempintro
      iexact H)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- info: 'Cert.KernelIdeal.Pairwise.run_main' depends on axioms: [propext, Classical.choice, Quot.sound] -/
#guard_msgs in #print axioms run_main

/-- Each argument array after a run to the post above is as launched — the two biases are arrays of input windows,
    never written; the other four no window stages and no host operation writes. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 6).trans (((dats m 0 c).arrAt_in 6 rfl _).trans ((A_eq m c 6).trans (V_main_arg3 m c))),
    ((h c).2 main_arg4 (Pipeline.mem_restRefs_of main_arg4 (by decide) (by decide))).trans (V_main_arg4 m c),
    ((h c).1 8).trans (((dats m 0 c).arrAt_in 8 rfl _).trans ((A_eq m c 8).trans (V_main_arg5 m c)))⟩

/-- THE FRAME: the run ends, nothing faults, and each argument array is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => kept_args m r h c) (run_main m ρ)

end Cert.KernelIdeal.Pairwise

end
-- ==== Proof.KernelIdealPayload.lean ====
/-
  The kernel body's arithmetic read at an entry of the output block, at the extended reals.

  The body lays the 32 row vectors `a` and the 32 column vectors `c` out as 1024 rows, row `32 p + q` holding
  `a_p` and `c_q`; multiplies `a`, `c`, `a - c` and `a * c` each by its own 768 x 1024 group of the first-layer
  weight into a zero accumulator and adds the four products left to right; adds the bias, applies `tanh`, multiplies
  by the second-layer weight, adds its bias, and lays the 1024 rows back out as 32 x 32. Read at the entry
  `(0, p, q, l)`, each layout step moves the index and each product into a zero accumulator is a sum over the
  contracted axis; a change of float format is the identity.
-/
import proofs.«156064_j13993003450895_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Payload

open Cert.KernelIdeal Cert.KernelIdeal.Gen
open Idealize.ShloMosaic Idealize.ShloMosaic.TcCoe Idealize.ShloMosaic.ValueIdx Idealize.ShloMosaic.Pipeline

/-- The row that holds the pair `(p, q)`. -/
abbrev row (p q : Fin 32) : Fin 1024 := ⟨32 * p.val + q.val, by have := p.isLt; have := q.isLt; omega⟩

/-! ## The layout steps, each over any operand -/

section Layout
variable {α : Type}

/-- 32 x 32 x 768 flattened to 1024 x 768: row `32 p + q` is entry `(p, q)`. -/
theorem flat_apply (v : S32x32x768.Idx → α) (h : S32x32x768.ShapeCasts S1024x768) (p q : Fin 32) (k : Fin 768) :
    shapeCast S1024x768 v h (ix2 (row p q) k) = v (ix3 p q k) :=
  shapeCast_apply v h _ (ix3 p q k) (by
    rw [Shape.rowMajor_val_three, Shape.rowMajor_val_two]
    show (p.val * 32 + q.val) * 768 + k.val = (32 * p.val + q.val) * 768 + k.val
    omega)

/-- A 32 x 1 x 768 value repeated along its middle axis. -/
theorem bcastMid_apply (v : S32x1x768.Idx → α) (h : S32x1x768.Broadcasts S32x32x768) (p q : Fin 32) (k : Fin 768) :
    broadcastTo S32x32x768 v h (ix3 p q k) = v (ix3 p 0 k) :=
  broadcastTo_apply v h _ (ix3 p 0 k) (fun a => by
    match a with
    | ⟨0, _⟩ => rfl
    | ⟨1, _⟩ => rfl
    | ⟨2, _⟩ => rfl)

/-- A 1 x 32 x 768 value repeated along its leading axis. -/
theorem bcastLead_apply (v : S1x32x768.Idx → α) (h : S1x32x768.Broadcasts S32x32x768) (p q : Fin 32) (k : Fin 768) :
    broadcastTo S32x32x768 v h (ix3 p q k) = v (ix3 0 q k) :=
  broadcastTo_apply v h _ (ix3 0 q k) (fun a => by
    match a with
    | ⟨0, _⟩ => rfl
    | ⟨1, _⟩ => rfl
    | ⟨2, _⟩ => rfl)

/-- 32 x 768 with a unit middle axis put in. -/
theorem addMid_apply (v : S32x768.Idx → α) (h : S32x768.ShapeCasts S32x1x768) (p : Fin 32) (k : Fin 768) :
    shapeCast S32x1x768 v h (ix3 p 0 k) = v (ix2 p k) :=
  shapeCast_apply v h _ (ix2 p k) (by
    rw [Shape.rowMajor_val_three, Shape.rowMajor_val_two]
    show p.val * 768 + k.val = (p.val * 1 + 0) * 768 + k.val
    omega)

/-- 1 x 32 x 768 with its unit leading axis dropped, and put back. -/
theorem dropLead_apply (v : S1x32x768.Idx → α) (h : S1x32x768.ShapeCasts S32x768) (p : Fin 32) (k : Fin 768) :
    shapeCast S32x768 v h (ix2 p k) = v (ix3 0 p k) :=
  shapeCast_apply v h _ (ix3 0 p k) (by
    rw [Shape.rowMajor_val_three, Shape.rowMajor_val_two]
    show (0 * 32 + p.val) * 768 + k.val = p.val * 768 + k.val
    omega)
theorem addLead_apply (v : S32x768.Idx → α) (h : S32x768.ShapeCasts S1x32x768) (p : Fin 32) (k : Fin 768) :
    shapeCast S1x32x768 v h (ix3 0 p k) = v (ix2 p k) :=
  shapeCast_apply v h _ (ix2 p k) (by
    rw [Shape.rowMajor_val_three, Shape.rowMajor_val_two]
    show p.val * 768 + k.val = (0 * 32 + p.val) * 768 + k.val
    omega)

/-- A bias of length `n` as a row repeated down 1024 rows. -/
theorem biasRow1024_apply (v : S1024.Idx → α) (h1 : S1024.ShapeCasts S1x1024) (h2 : S1x1024.Broadcasts S1024x1024) (r h : Fin 1024) :
    broadcastTo S1024x1024 (shapeCast S1x1024 v h1) h2 (ix2 r h) = v (ix1 h) := by
  rw [broadcastTo_apply (shapeCast S1x1024 v h1) h2 _ (ix2 0 h) (fun a => by
    match a with
    | ⟨0, _⟩ => rfl
    | ⟨1, _⟩ => rfl)]
  exact shapeCast_apply v h1 _ (ix1 h) (by
    rw [Shape.rowMajor_val_two, Shape.rowMajor_val_one]
    show h.val = 0 * 1024 + h.val
    omega)
theorem biasRow16_apply (v : S16.Idx → α) (h1 : S16.ShapeCasts S1x16) (h2 : S1x16.Broadcasts S1024x16) (r : Fin 1024) (l : Fin 16) :
    broadcastTo S1024x16 (shapeCast S1x16 v h1) h2 (ix2 r l) = v (ix1 l) := by
  rw [broadcastTo_apply (shapeCast S1x16 v h1) h2 _ (ix2 0 l) (fun a => by
    match a with
    | ⟨0, _⟩ => rfl
    | ⟨1, _⟩ => rfl)]
  exact shapeCast_apply v h1 _ (ix1 l) (by
    rw [Shape.rowMajor_val_two, Shape.rowMajor_val_one]
    show l.val = 0 * 16 + l.val
    omega)

/-- 1024 x 16 laid out as 32 x 32 x 16 and then with a unit leading axis. -/
theorem unflat_apply (v : S1024x16.Idx → α) (h : S1024x16.ShapeCasts S32x32x16) (p q : Fin 32) (l : Fin 16) :
    shapeCast S32x32x16 v h (ix3 p q l) = v (ix2 (row p q) l) :=
  shapeCast_apply v h _ (ix2 (row p q) l) (by
    rw [Shape.rowMajor_val_three, Shape.rowMajor_val_two]
    show (32 * p.val + q.val) * 16 + l.val = (p.val * 32 + q.val) * 16 + l.val
    omega)
theorem addLead4_apply (v : S32x32x16.Idx → α) (h : S32x32x16.ShapeCasts S1x32x32x16) (p q : Fin 32) (l : Fin 16) :
    shapeCast S1x32x32x16 v h (ix4 0 p q l) = v (ix3 p q l) :=
  shapeCast_apply v h _ (ix3 p q l) (by
    rw [Shape.rowMajor_val_four, Shape.rowMajor_val_three]
    show (p.val * 32 + q.val) * 16 + l.val = ((0 * 32 + p.val) * 32 + q.val) * 16 + l.val
    omega)

end Layout

/-! ## The two matrix products -/

theorem mm1_l0 (i : S1024x1024.Idx) (q : dot_S1024x768_S768x1024_S1024x1024_1_0_0_1_n_n.contr.Idx) : (dot_S1024x768_S768x1024_S1024x1024_1_0_0_1_n_n.lhsIdx i q 0).val = (i 0).val := by
  unfold DotDims.lhsIdx
  rw [dif_neg (show ¬(0 : Fin S1024x768.rank) ∈ dot_S1024x768_S768x1024_S1024x1024_1_0_0_1_n_n.lhsBatch by decide), dif_pos (show (0 : Fin S1024x768.rank) ∈ dot_S1024x768_S768x1024_S1024x1024_1_0_0_1_n_n.lhsNonContracting by decide)]
  rfl
theorem mm1_l1 (i : S1024x1024.Idx) (q : dot_S1024x768_S768x1024_S1024x1024_1_0_0_1_n_n.contr.Idx) : (dot_S1024x768_S768x1024_S1024x1024_1_0_0_1_n_n.lhsIdx i q 1).val = (q ⟨0, by decide⟩).val :=
  dot_S1024x768_S768x1024_S1024x1024_1_0_0_1_n_n.lhsIdx_val_of_single rfl i q
theorem mm1_r0 (i : S1024x1024.Idx) (q : dot_S1024x768_S768x1024_S1024x1024_1_0_0_1_n_n.contr.Idx) : (dot_S1024x768_S768x1024_S1024x1024_1_0_0_1_n_n.rhsIdx i q 0).val = (q ⟨0, by decide⟩).val :=
  dot_S1024x768_S768x1024_S1024x1024_1_0_0_1_n_n.rhsIdx_val_of_single rfl i q
theorem mm1_r1 (i : S1024x1024.Idx) (q : dot_S1024x768_S768x1024_S1024x1024_1_0_0_1_n_n.contr.Idx) : (dot_S1024x768_S768x1024_S1024x1024_1_0_0_1_n_n.rhsIdx i q 1).val = (i 1).val := by
  unfold DotDims.rhsIdx
  rw [dif_neg (show ¬(1 : Fin S768x1024.rank) ∈ dot_S1024x768_S768x1024_S1024x1024_1_0_0_1_n_n.rhsBatch by decide), dif_pos (show (1 : Fin S768x1024.rank) ∈ dot_S1024x768_S768x1024_S1024x1024_1_0_0_1_n_n.rhsNonContracting by decide)]
  rfl

/-- The product into a zero accumulator, read at an entry: the sum over the contracted axis. -/
theorem mm1_apply {φ₁ φ₂ : FTy} (l : FVec Ideal S1024x768 φ₁) (r : FVec Ideal S768x1024 φ₂) (a : Fin 1024) (b : Fin 1024) :
    matmul dot_S1024x768_S768x1024_S1024x1024_1_0_0_1_n_n none l r (constant S1024x1024 .f32 0x00000000#32) (ix2 a b) = ∑ k : Fin 768, l (ix2 a k) * r (ix2 k b) := by
  simp only [matmul]
  rw [Ideal.matmul_constant_zero_apply, ← Equiv.sum_comp (ValueIdx.contrEquiv1 dot_S1024x768_S768x1024_S1024x1024_1_0_0_1_n_n 768 rfl rfl).symm]
  refine Finset.sum_congr rfl fun k _ => ?_
  have hk := ValueIdx.contrEquiv1_symm_val dot_S1024x768_S768x1024_S1024x1024_1_0_0_1_n_n 768 rfl rfl k
  have el : dot_S1024x768_S768x1024_S1024x1024_1_0_0_1_n_n.lhsIdx (ix2 a b) ((ValueIdx.contrEquiv1 dot_S1024x768_S768x1024_S1024x1024_1_0_0_1_n_n 768 rfl rfl).symm k) = ix2 a k := funext fun x => Fin.ext (by
    match x with
    | ⟨0, _⟩ => exact mm1_l0 _ _
    | ⟨1, _⟩ => exact (mm1_l1 _ _).trans hk)
  have er : dot_S1024x768_S768x1024_S1024x1024_1_0_0_1_n_n.rhsIdx (ix2 a b) ((ValueIdx.contrEquiv1 dot_S1024x768_S768x1024_S1024x1024_1_0_0_1_n_n 768 rfl rfl).symm k) = ix2 k b := funext fun x => Fin.ext (by
    match x with
    | ⟨0, _⟩ => exact (mm1_r0 _ _).trans hk
    | ⟨1, _⟩ => exact mm1_r1 _ _)
  rw [el, er]

theorem mm2_l0 (i : S1024x16.Idx) (q : dot_S1024x1024_S1024x16_S1024x16_1_0_0_1_n_n.contr.Idx) : (dot_S1024x1024_S1024x16_S1024x16_1_0_0_1_n_n.lhsIdx i q 0).val = (i 0).val := by
  unfold DotDims.lhsIdx
  rw [dif_neg (show ¬(0 : Fin S1024x1024.rank) ∈ dot_S1024x1024_S1024x16_S1024x16_1_0_0_1_n_n.lhsBatch by decide), dif_pos (show (0 : Fin S1024x1024.rank) ∈ dot_S1024x1024_S1024x16_S1024x16_1_0_0_1_n_n.lhsNonContracting by decide)]
  rfl
theorem mm2_l1 (i : S1024x16.Idx) (q : dot_S1024x1024_S1024x16_S1024x16_1_0_0_1_n_n.contr.Idx) : (dot_S1024x1024_S1024x16_S1024x16_1_0_0_1_n_n.lhsIdx i q 1).val = (q ⟨0, by decide⟩).val :=
  dot_S1024x1024_S1024x16_S1024x16_1_0_0_1_n_n.lhsIdx_val_of_single rfl i q
theorem mm2_r0 (i : S1024x16.Idx) (q : dot_S1024x1024_S1024x16_S1024x16_1_0_0_1_n_n.contr.Idx) : (dot_S1024x1024_S1024x16_S1024x16_1_0_0_1_n_n.rhsIdx i q 0).val = (q ⟨0, by decide⟩).val :=
  dot_S1024x1024_S1024x16_S1024x16_1_0_0_1_n_n.rhsIdx_val_of_single rfl i q
theorem mm2_r1 (i : S1024x16.Idx) (q : dot_S1024x1024_S1024x16_S1024x16_1_0_0_1_n_n.contr.Idx) : (dot_S1024x1024_S1024x16_S1024x16_1_0_0_1_n_n.rhsIdx i q 1).val = (i 1).val := by
  unfold DotDims.rhsIdx
  rw [dif_neg (show ¬(1 : Fin S1024x16.rank) ∈ dot_S1024x1024_S1024x16_S1024x16_1_0_0_1_n_n.rhsBatch by decide), dif_pos (show (1 : Fin S1024x16.rank) ∈ dot_S1024x1024_S1024x16_S1024x16_1_0_0_1_n_n.rhsNonContracting by decide)]
  rfl

/-- The product into a zero accumulator, read at an entry: the sum over the contracted axis. -/
theorem mm2_apply {φ₁ φ₂ : FTy} (l : FVec Ideal S1024x1024 φ₁) (r : FVec Ideal S1024x16 φ₂) (a : Fin 1024) (b : Fin 16) :
    matmul dot_S1024x1024_S1024x16_S1024x16_1_0_0_1_n_n none l r (constant S1024x16 .f32 0x00000000#32) (ix2 a b) = ∑ k : Fin 1024, l (ix2 a k) * r (ix2 k b) := by
  simp only [matmul]
  rw [Ideal.matmul_constant_zero_apply, ← Equiv.sum_comp (ValueIdx.contrEquiv1 dot_S1024x1024_S1024x16_S1024x16_1_0_0_1_n_n 1024 rfl rfl).symm]
  refine Finset.sum_congr rfl fun k _ => ?_
  have hk := ValueIdx.contrEquiv1_symm_val dot_S1024x1024_S1024x16_S1024x16_1_0_0_1_n_n 1024 rfl rfl k
  have el : dot_S1024x1024_S1024x16_S1024x16_1_0_0_1_n_n.lhsIdx (ix2 a b) ((ValueIdx.contrEquiv1 dot_S1024x1024_S1024x16_S1024x16_1_0_0_1_n_n 1024 rfl rfl).symm k) = ix2 a k := funext fun x => Fin.ext (by
    match x with
    | ⟨0, _⟩ => exact mm2_l0 _ _
    | ⟨1, _⟩ => exact (mm2_l1 _ _).trans hk)
  have er : dot_S1024x1024_S1024x16_S1024x16_1_0_0_1_n_n.rhsIdx (ix2 a b) ((ValueIdx.contrEquiv1 dot_S1024x1024_S1024x16_S1024x16_1_0_0_1_n_n 1024 rfl rfl).symm k) = ix2 k b := funext fun x => Fin.ext (by
    match x with
    | ⟨0, _⟩ => exact (mm2_r0 _ _).trans hk
    | ⟨1, _⟩ => exact mm2_r1 _ _)
  rw [el, er]

/-! ## The body's value at an entry of the block -/

theorem tanh_apply {s : Shape} {φ : FTy} (a : FVec Ideal s φ) (i : s.Idx) : tanh a i = Ideal.tanh (a i) := rfl

/-- Hidden unit `h` of the pair `(p, q)`, from the loaded blocks: the four products added left to right, the bias, `tanh`. -/
def blockHidden (x0 x1 : FVec Ideal S1x32x768 .bf16) (x2 x3 x4 x5 : FVec Ideal S768x1024 .bf16) (x6 : FVec Ideal S1024 .f32)
    (p q : Fin 32) (h : Fin 1024) : EReal :=
  Ideal.tanh (((((∑ k : Fin 768, x0 (ix3 0 p k) * x2 (ix2 k h)) + ∑ k : Fin 768, x1 (ix3 0 q k) * x3 (ix2 k h))
      + ∑ k : Fin 768, (x0 (ix3 0 p k) - x1 (ix3 0 q k)) * x4 (ix2 k h))
      + ∑ k : Fin 768, (x0 (ix3 0 p k) * x1 (ix3 0 q k)) * x5 (ix2 k h)) + x6 (ix1 h))

/-- The hidden layer the body computes, at row `32 p + q` and unit `h`. -/
theorem pay2_apply (x0 x1 : FVec Ideal S1x32x768 .bf16) (x2 x3 x4 x5 : FVec Ideal S768x1024 .bf16) (x6 : FVec Ideal S1024 .f32)
    (p q : Fin 32) (h : Fin 1024) :
    k0_pay2 (F := Ideal) x0 x1 x2 x3 x4 x5 x6 (ix2 (row p q) h) = blockHidden x0 x1 x2 x3 x4 x5 x6 p q h := by
  unfold k0_pay2 blockHidden
  simp only [truncf_apply, tanh_apply, addf_apply, subf_apply, mulf_apply, mm1_apply, shapeCast_self, biasRow1024_apply,
    flat_apply, bcastMid_apply, bcastLead_apply, addMid_apply, dropLead_apply, addLead_apply]

/-- The stored value, at the entry `(0, p, q, l)`, over any hidden layer. -/
theorem pay1_apply (v34 : FVec Ideal S1024x1024 .bf16) (x7 : FVec Ideal S1024x16 .bf16) (x8 : FVec Ideal S16 .f32)
    (p q : Fin 32) (l : Fin 16) :
    k0_pay1 (F := Ideal) v34 x7 x8 (ix4 0 p q l) = (∑ h : Fin 1024, v34 (ix2 (row p q) h) * x7 (ix2 h l)) + x8 (ix1 l) := by
  unfold k0_pay1
  simp only [addLead4_apply, unflat_apply, addf_apply, mm2_apply, shapeCast_self, biasRow16_apply]

/-- The body's stored value at the entry `(0, p, q, l)`, from the loaded blocks. -/
theorem stored_apply (x0 x1 : FVec Ideal S1x32x768 .bf16) (x2 x3 x4 x5 : FVec Ideal S768x1024 .bf16) (x6 : FVec Ideal S1024 .f32)
    (x7 : FVec Ideal S1024x16 .bf16) (x8 : FVec Ideal S16 .f32) (p q : Fin 32) (l : Fin 16) :
    k0_pay1 (F := Ideal) (k0_pay2 (F := Ideal) x0 x1 x2 x3 x4 x5 x6) x7 x8 (ix4 0 p q l)
      = (∑ h : Fin 1024, blockHidden x0 x1 x2 x3 x4 x5 x6 p q h * x7 (ix2 h l)) + x8 (ix1 l) := by
  rw [pay1_apply]
  simp only [pay2_apply]

end Cert.KernelIdeal.Payload

end
-- ==== Proof.KernelIdealEntry.lean ====
/-
  The arrays the kernel region finds at entry, as functions of the argument arrays.

  Before the region @main computes: the gathered rows `con` (a negative start counts from the end; a start outside
  `0 .. 255` gives the fill value), then `con` and the two weights changed to the narrower float format, and the
  first-layer weight cut into its four groups of 768 rows. Each array a window reads is therefore one explicit
  function of the arguments; the two biases are the arguments themselves.
-/
import proofs.«156064_j13993003450895_1_alg».proof.Proof.KernelIdealFrame
import Idealize.ShloMosaic.Lib.StableHlo.Run

set_option maxRecDepth 16384

noncomputable section

namespace Cert.KernelIdeal.Entry

open Cert.KernelIdeal Cert.KernelIdeal.Gen Cert.KernelIdeal.Pairwise
open Idealize.ShloMosaic Idealize.ShloMosaic.TcCoe Idealize.SL.Sem Idealize.ShloMosaic.StableHlo

variable {F : FTy → Type} [FloatOps F]
variable (m : (ℓ : Loc nD τ sig) → Buf (Elt F) ℓ)

/-- The gathered rows as one function of the hidden states and the start positions: a negative position counts from
    the end (256 is added), the row at the position is taken, and a position outside `0 .. 255` yields the fill value. -/
def gathered (x0 : (⟨S4x256x768, .f32⟩ : BufTy).Contents (Elt F)) (x1 : (⟨S4x128, .i32⟩ : BufTy).Contents (Elt F)) :
    (⟨S4x128x768, .f32⟩ : BufTy).Contents (Elt F) :=
  have i0 : IVec S4x128x1 32 := broadcastInDim S4x128x1 ![0, 1] bcast_S4x128_S4x128x1_0_1 x1
  have neg : IVec S4x128x1 1 := cmpi .slt i0 (broadcastInDim S4x128x1 ![] bcast_S_S4x128x1 (constantI S_ 32 0#32))
  have wrapped : IVec S4x128x1 32 := addi i0 (broadcastInDim S4x128x1 ![] bcast_S_S4x128x1 (constantI S_ 32 256#32))
  have pos : IVec S4x128x1 32 := select neg wrapped i0
  have ge0 : IVec S4x128x1 1 := cmpi .sge pos (broadcastInDim S4x128x1 ![] bcast_S_S4x128x1 (constantI S_ 32 0#32))
  have le255 : IVec S4x128x1 1 := cmpi .sle pos (broadcastInDim S4x128x1 ![0, 1, 2] bcast_S1x1x1_S4x128x1_0_1_2 (broadcastInDim S1x1x1 ![2] bcast_S1_S1x1x1_2 (constantI S1 32 255#32)))
  have inRange : IVec S4x128 1 := Host.reduce IntOp.andi (andi ge0 le255) (constantI S_ 1 1#1) reducesTo_S4x128x1_S4x128_d2 h_S_
  have rows : FVec F S4x128x768 .f32 := Host.gather gather_S4x256x768_S4x128x1_S4x128x768_2_1_0_0_1_2_11768 x0 pos
  select (broadcastInDim S4x128x768 ![0, 1] bcast_S4x128_S4x128x768_0_1 inRange) rows
    (broadcastInDim S4x128x768 ![] bcast_S_S4x128x768 (constant S_ .f32 0x7FC00000#32))

set_option maxHeartbeats 1000000 in
/-- The rows the two row windows read: the gathered rows, in the narrower format. -/
theorem V_v2 (c : Dev nD) : (V m c main_v2 : (⟨S4x128x768, .bf16⟩ : BufTy).Contents (Elt F))
    = truncf .bf16 (gathered (m ((c : Thread nD τ).loc main_arg0)) (m ((c : Thread nD τ).loc main_arg1))) bitsLt_bf16_f32 := by
  dsimp only [V]
  simp only [hostOps0, hostOps0_1, hostOps0_2, List.flatten_cons, List.flatten_nil, List.append_nil, List.cons_append, List.nil_append]
  after_results
  simp only [TRef.ofBuf, TRef.toBuf, cast_eq]
  rfl

/-! The four groups of the first-layer weight: rows `768 g .. 768 g + 767` of the weight in the narrower format. -/
set_option maxHeartbeats 1000000 in
theorem V_v4 (c : Dev nD) : (V m c main_v4 : (⟨S768x1024, .bf16⟩ : BufTy).Contents (Elt F))
    = extractStridedSlice S768x1024 ![0, 0] (truncf .bf16 (m ((c : Thread nD τ).loc main_arg2) : (⟨S3072x1024, .f32⟩ : BufTy).Contents (Elt F)) bitsLt_bf16_f32) slices_S3072x1024_S768x1024_0_0 := by
  dsimp only [V]
  simp only [hostOps0, hostOps0_1, hostOps0_2, List.flatten_cons, List.flatten_nil, List.append_nil, List.cons_append, List.nil_append]
  after_results
set_option maxHeartbeats 1000000 in
theorem V_v5 (c : Dev nD) : (V m c main_v5 : (⟨S768x1024, .bf16⟩ : BufTy).Contents (Elt F))
    = extractStridedSlice S768x1024 ![768, 0] (truncf .bf16 (m ((c : Thread nD τ).loc main_arg2) : (⟨S3072x1024, .f32⟩ : BufTy).Contents (Elt F)) bitsLt_bf16_f32) slices_S3072x1024_S768x1024_768_0 := by
  dsimp only [V]
  simp only [hostOps0, hostOps0_1, hostOps0_2, List.flatten_cons, List.flatten_nil, List.append_nil, List.cons_append, List.nil_append]
  after_results
set_option maxHeartbeats 1000000 in
theorem V_v6 (c : Dev nD) : (V m c main_v6 : (⟨S768x1024, .bf16⟩ : BufTy).Contents (Elt F))
    = extractStridedSlice S768x1024 ![1536, 0] (truncf .bf16 (m ((c : Thread nD τ).loc main_arg2) : (⟨S3072x1024, .f32⟩ : BufTy).Contents (Elt F)) bitsLt_bf16_f32) slices_S3072x1024_S768x1024_1536_0 := by
  dsimp only [V]
  simp only [hostOps0, hostOps0_1, hostOps0_2, List.flatten_cons, List.flatten_nil, List.append_nil, List.cons_append, List.nil_append]
  after_results
set_option maxHeartbeats 1000000 in
theorem V_v7 (c : Dev nD) : (V m c main_v7 : (⟨S768x1024, .bf16⟩ : BufTy).Contents (Elt F))
    = extractStridedSlice S768x1024 ![2304, 0] (truncf .bf16 (m ((c : Thread nD τ).loc main_arg2) : (⟨S3072x1024, .f32⟩ : BufTy).Contents (Elt F)) bitsLt_bf16_f32) slices_S3072x1024_S768x1024_2304_0 := by
  dsimp only [V]
  simp only [hostOps0, hostOps0_1, hostOps0_2, List.flatten_cons, List.flatten_nil, List.append_nil, List.cons_append, List.nil_append]
  after_results

set_option maxHeartbeats 1000000 in
/-- The second-layer weight in the narrower format. -/
theorem V_v8 (c : Dev nD) : (V m c main_v8 : (⟨S1024x16, .bf16⟩ : BufTy).Contents (Elt F))
    = truncf .bf16 (m ((c : Thread nD τ).loc main_arg4) : (⟨S1024x16, .f32⟩ : BufTy).Contents (Elt F)) bitsLt_bf16_f32 := by
  dsimp only [V]
  simp only [hostOps0, hostOps0_1, hostOps0_2, List.flatten_cons, List.flatten_nil, List.append_nil, List.cons_append, List.nil_append]
  after_results

end Cert.KernelIdeal.Entry

end
-- ==== Proof.Spec.lean ====
/-
  The pairwise scores as one function of the arrays, index by index, and the one law that joins the two programs.

  With `con[b, n, :]` the gathered row of batch `b` at position `n`, the pair `(n, n')` has the 3072 features
  `[a, c, a - c, a * c]` with `a = con[b, n, :]` and `c = con[b, n', :]`; the hidden layer is
  `tanh (Σ_f feature f * W1[f, h] + b1[h])` and the score `Σ_h hidden h * W2[h, l] + b2[l]`, all on the extended reals.

  One program contracts the 3072 features at once; the other contracts each group of 768 against its own 768 rows
  of `W1` and adds the four sums, left to right. The two agree because a sum over `Fin (768 + 768 + 768 + 768)` is
  the sum of the four sums over its consecutive blocks — regrouping of a finite sum in a commutative monoid, which
  holds at every extended real, the infinities included: no finiteness is used.
-/
import Idealize.ShloMosaic.PureOps.Ideal
import Idealize.ShloMosaic.Lib.ValueIdx
import Mathlib.Algebra.BigOperators.Fin

noncomputable section

namespace Cert.Scores

open Idealize.ShloMosaic Idealize.ShloMosaic.ValueIdx

abbrev SCon : Shape := ⟨3, ![4, 128, 768]⟩
abbrev SW1 : Shape := ⟨2, ![3072, 1024]⟩
abbrev SB1 : Shape := ⟨1, ![1024]⟩
abbrev SW2 : Shape := ⟨2, ![1024, 16]⟩
abbrev SB2 : Shape := ⟨1, ![16]⟩
abbrev SOut : Shape := ⟨4, ![4, 128, 128, 16]⟩

/-- Row `768 g + k` of the first-layer weight: row `k` of its group `g`. -/
abbrev wrow (g : Fin 4) (k : Fin 768) : Fin 3072 := ⟨768 * g.val + k.val, by have := g.isLt; have := k.isLt; omega⟩

/-- Feature `k` of group `g` of the pair `(n, n')` of batch `b`: the row, the column, their difference, their product. -/
def feat (con : SCon.Idx → EReal) (b : Fin 4) (n n' : Fin 128) (g : Fin 4) (k : Fin 768) : EReal :=
  match g with
  | ⟨0, _⟩ => con (ix3 b n k)
  | ⟨1, _⟩ => con (ix3 b n' k)
  | ⟨2, _⟩ => con (ix3 b n k) - con (ix3 b n' k)
  | ⟨3, _⟩ => con (ix3 b n k) * con (ix3 b n' k)

theorem feat_zero (con : SCon.Idx → EReal) (b : Fin 4) (n n' : Fin 128) (k : Fin 768) : feat con b n n' 0 k = con (ix3 b n k) := rfl
theorem feat_one (con : SCon.Idx → EReal) (b : Fin 4) (n n' : Fin 128) (k : Fin 768) : feat con b n n' 1 k = con (ix3 b n' k) := rfl
theorem feat_two (con : SCon.Idx → EReal) (b : Fin 4) (n n' : Fin 128) (k : Fin 768) :
    feat con b n n' 2 k = con (ix3 b n k) - con (ix3 b n' k) := rfl
theorem feat_three (con : SCon.Idx → EReal) (b : Fin 4) (n n' : Fin 128) (k : Fin 768) :
    feat con b n n' 3 k = con (ix3 b n k) * con (ix3 b n' k) := rfl

/-- One group's contribution to the hidden pre-activation at unit `h`. -/
def groupSum (con : SCon.Idx → EReal) (W1 : SW1.Idx → EReal) (b : Fin 4) (n n' : Fin 128) (h : Fin 1024) (g : Fin 4) : EReal :=
  ∑ k : Fin 768, feat con b n n' g k * W1 (ix2 (wrow g k) h)

/-- The hidden layer at unit `h`, the four groups added left to right. -/
def hidden (con : SCon.Idx → EReal) (W1 : SW1.Idx → EReal) (b1 : SB1.Idx → EReal) (b : Fin 4) (n n' : Fin 128) (h : Fin 1024) : EReal :=
  Ideal.tanh ((((groupSum con W1 b n n' h 0 + groupSum con W1 b n n' h 1) + groupSum con W1 b n n' h 2) + groupSum con W1 b n n' h 3) + b1 (ix1 h))

/-- The scores. -/
def scores (con : SCon.Idx → EReal) (W1 : SW1.Idx → EReal) (b1 : SB1.Idx → EReal) (W2 : SW2.Idx → EReal) (b2 : SB2.Idx → EReal) :
    SOut.Idx → EReal := fun y =>
  (∑ h : Fin 1024, hidden con W1 b1 (y 0) (y 1) (y 2) h * W2 (ix2 h (y 3))) + b2 (ix1 (y 3))

/-- The scores at an entry given by its coordinates. -/
theorem scores_apply (con : SCon.Idx → EReal) (W1 : SW1.Idx → EReal) (b1 : SB1.Idx → EReal) (W2 : SW2.Idx → EReal) (b2 : SB2.Idx → EReal)
    (b : Fin 4) (n n' : Fin 128) (l : Fin 16) :
    scores con W1 b1 W2 b2 (ix4 b n n' l) = (∑ h : Fin 1024, hidden con W1 b1 b n n' h * W2 (ix2 h l)) + b2 (ix1 l) := rfl

/-- The feature at position `f` of the 3072 concatenated ones: position `f` lies in group `f / 768` at `f % 768`. -/
def featAt (con : SCon.Idx → EReal) (b : Fin 4) (n n' : Fin 128) (f : Fin 3072) : EReal :=
  feat con b n n' ⟨f.val / 768, by have := f.isLt; omega⟩ ⟨f.val % 768, Nat.mod_lt _ (by decide)⟩

/-- A sum over four consecutive blocks of one length is the four block sums added left to right. -/
theorem sum_four_blocks {M : Type*} [AddCommMonoid M] (n : ℕ) (f : Fin (n + n + n + n) → M) :
    ∑ i, f i = ((∑ k : Fin n, f (Fin.castAdd n (Fin.castAdd n (Fin.castAdd n k))) + ∑ k : Fin n, f (Fin.castAdd n (Fin.castAdd n (Fin.natAdd n k))))
      + ∑ k : Fin n, f (Fin.castAdd n (Fin.natAdd (n + n) k))) + ∑ k : Fin n, f (Fin.natAdd (n + n + n) k) := by
  rw [Fin.sum_univ_add, Fin.sum_univ_add, Fin.sum_univ_add]

/-- Position `768 g + k` holds feature `k` of group `g`. -/
theorem featAt_wrow (con : SCon.Idx → EReal) (b : Fin 4) (n n' : Fin 128) (g : Fin 4) (k : Fin 768) :
    featAt con b n n' (wrow g k) = feat con b n n' g k := by
  unfold featAt
  have hg : (⟨(wrow g k).val / 768, by have := (wrow g k).isLt; omega⟩ : Fin 4) = g :=
    Fin.ext (by show (768 * g.val + k.val) / 768 = g.val; have := k.isLt; omega)
  have hk : (⟨(wrow g k).val % 768, Nat.mod_lt _ (by decide)⟩ : Fin 768) = k :=
    Fin.ext (by show (768 * g.val + k.val) % 768 = k.val; have := k.isLt; omega)
  rw [hg, hk]

/-- The contraction over all 3072 features is the four group sums added left to right. -/
theorem sum_features (con : SCon.Idx → EReal) (W1 : SW1.Idx → EReal) (b : Fin 4) (n n' : Fin 128) (h : Fin 1024) :
    ∑ f : Fin 3072, featAt con b n n' f * W1 (ix2 f h)
      = ((groupSum con W1 b n n' h 0 + groupSum con W1 b n n' h 1) + groupSum con W1 b n n' h 2) + groupSum con W1 b n n' h 3 := by
  have e0 : ∀ k : Fin 768, (Fin.castAdd 768 (Fin.castAdd 768 (Fin.castAdd 768 k)) : Fin 3072) = wrow 0 k := fun k => Fin.ext (by simp <;> omega)
  have e1 : ∀ k : Fin 768, (Fin.castAdd 768 (Fin.castAdd 768 (Fin.natAdd 768 k)) : Fin 3072) = wrow 1 k := fun k => Fin.ext (by simp <;> omega)
  have e2 : ∀ k : Fin 768, (Fin.castAdd 768 (Fin.natAdd (768 + 768) k) : Fin 3072) = wrow 2 k := fun k => Fin.ext (by simp <;> omega)
  have e3 : ∀ k : Fin 768, (Fin.natAdd (768 + 768 + 768) k : Fin 3072) = wrow 3 k := fun k => Fin.ext (by simp <;> omega)
  refine (sum_four_blocks 768 (fun f : Fin (768 + 768 + 768 + 768) => featAt con b n n' f * W1 (ix2 f h))).trans ?_
  unfold groupSum
  simp only [e0, e1, e2, e3, featAt_wrow]

end Cert.Scores

end
-- ==== Proof.KernelIdealValue.lean ====
/-
  The kernel's result array after the run, as one function of the arrays: the pairwise scores.

  Point `t = (b, i, j)` of the 4 x 4 x 4 grid writes back the block `(b, i, j, 0)` of the result, of extent
  1 x 32 x 32 x 16. Its row window holds `con[b, 32 i + p, :]`, its column window `con[b, 32 j + q, :]`, the weight
  windows the whole of their arrays at every point. So the stored value at `(0, p, q, l)` — the body's arithmetic read
  at an entry — is the score of the pair `(32 i + p, 32 j + q)` of batch `b` at label `l`: block `t` of the one
  function `scores`. The 64 blocks tile the result, so the array ends at `scores` everywhere.
-/
import proofs.«156064_j13993003450895_1_alg».proof.Proof.KernelIdealFrame
import proofs.«156064_j13993003450895_1_alg».proof.Proof.KernelIdealPayload
import proofs.«156064_j13993003450895_1_alg».proof.Proof.KernelIdealEntry
import proofs.«156064_j13993003450895_1_alg».proof.Proof.Spec
import Idealize.ShloMosaic.Lib.StableHlo.Run

set_option maxRecDepth 16384

noncomputable section

namespace Cert.KernelIdeal.PairValue

open Cert.KernelIdeal Cert.KernelIdeal.Gen Cert.KernelIdeal.Pairwise Cert.KernelIdeal.Payload Cert.Scores
open Idealize.ShloMosaic Idealize.ShloMosaic.TcCoe Idealize.SL.Sem Idealize.ShloMosaic.StableHlo Idealize.ShloMosaic.ValueIdx
open Idealize.ShloMosaic.Pipeline (Dat Cfg Window)

variable (m : (ℓ : Loc nD τ sig) → Buf (Elt Ideal) ℓ) (ρ : Dev nD → PrngReg)

/-! ## The printed index maps, decided once over the grid -/

/-- The row window follows the result's batch and row block, the column window its batch and column block; the other
    windows stay at block 0; the result's block coordinates are below 4. -/
theorem idx_facts : ∀ t : Fin cfg0.N,
    win0_0.index t (0 : Fin 3) = win0_9.index t (0 : Fin 4) ∧ win0_0.index t (1 : Fin 3) = win0_9.index t (1 : Fin 4) ∧ win0_0.index t (2 : Fin 3) = 0
    ∧ win0_1.index t (0 : Fin 3) = win0_9.index t (0 : Fin 4) ∧ win0_1.index t (1 : Fin 3) = win0_9.index t (2 : Fin 4) ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (3 : Fin 4) = 0
    ∧ win0_9.index t (0 : Fin 4) < 4 ∧ win0_9.index t (1 : Fin 4) < 4 ∧ win0_9.index t (2 : Fin 4) < 4 :=
  (by decide +kernel : ∀ t : Fin grid0.N, _)

/-- Every block of the result is some point's. -/
theorem idx_onto : ∀ (b i j : Fin 4), ∃ t : Fin cfg0.N, win0_9.index t = ![b.val, i.val, j.val, 0] :=
  (by decide +kernel : ∀ (b i j : Fin 4), ∃ t : Fin grid0.N, win0_9.index t = ![b.val, i.val, j.val, 0])

/-- The batch, the row block and the column block of point `t`. -/
def pb (t : Fin cfg0.N) : Fin 4 := ⟨win0_9.index t (0 : Fin 4), (idx_facts t).2.2.2.2.2.2.2.2.2.2.2.2.2.2.2.2.2.2.2.1⟩
def pi (t : Fin cfg0.N) : Fin 4 := ⟨win0_9.index t (1 : Fin 4), (idx_facts t).2.2.2.2.2.2.2.2.2.2.2.2.2.2.2.2.2.2.2.2.1⟩
def pj (t : Fin cfg0.N) : Fin 4 := ⟨win0_9.index t (2 : Fin 4), (idx_facts t).2.2.2.2.2.2.2.2.2.2.2.2.2.2.2.2.2.2.2.2.2⟩

/-- Position `32 i + p` of a block of 32. -/
abbrev at32 (i : Fin 4) (p : Fin 32) : Fin 128 := ⟨32 * i.val + p.val, by have := i.isLt; have := p.isLt; omega⟩

/-! ## Arrays and blocks at their literal types -/

/-- The gathered rows as the region finds them. -/
abbrev conArr (c : Dev nD) : SCon.Idx → EReal := V m c main_v2
/-- The arguments the result is stated over. -/
abbrev w1Arg (c : Dev nD) : SW1.Idx → EReal := m ((c : Thread nD τ).loc main_arg2)
abbrev b1Arg (c : Dev nD) : SB1.Idx → EReal := m ((c : Thread nD τ).loc main_arg3)
abbrev w2Arg (c : Dev nD) : SW2.Idx → EReal := m ((c : Thread nD τ).loc main_arg4)
abbrev b2Arg (c : Dev nD) : SB2.Idx → EReal := m ((c : Thread nD τ).loc main_arg5)

/-- The result: the scores of the gathered rows under the two layers. -/
def result (c : Dev nD) : SOut.Idx → EReal := scores (conArr m c) (w1Arg m c) (b1Arg m c) (w2Arg m c) (b2Arg m c)

/-! ## Each window's block, read at an entry -/

/-- The row window at point `t` holds rows `32 i ..` of batch `b`. -/
theorem rowBlk_apply (c : Dev nD) (t : Fin cfg0.N) (p : Fin 32) (k : Fin 768) :
    (iblk m c 0 t : S1x32x768.Idx → EReal) (ix3 0 p k) = conArr m c (ix3 (pb t) (at32 (pi t) p) k) := by
  obtain ⟨e0, e1, e2, -⟩ := idx_facts t
  show conArr m c (((cfg0.win 0).blk t).view.emb (ix3 0 p k)) = _
  refine congrArg (conArr m c) (funext fun a => Fin.ext ?_)
  match a with
  | ⟨0, _⟩ => show win0_0.index t (0 : Fin 3) * 1 + 1 * 0 = win0_9.index t (0 : Fin 4); omega
  | ⟨1, _⟩ => show win0_0.index t (1 : Fin 3) * 32 + 1 * p.val = 32 * win0_9.index t (1 : Fin 4) + p.val; omega
  | ⟨2, _⟩ => show win0_0.index t (2 : Fin 3) * 768 + 1 * k.val = k.val; omega

/-- The column window at point `t` holds rows `32 j ..` of batch `b`. -/
theorem colBlk_apply (c : Dev nD) (t : Fin cfg0.N) (q : Fin 32) (k : Fin 768) :
    (iblk m c 1 t : S1x32x768.Idx → EReal) (ix3 0 q k) = conArr m c (ix3 (pb t) (at32 (pj t) q) k) := by
  obtain ⟨-, -, -, e0, e1, e2, -⟩ := idx_facts t
  show conArr m c (((cfg0.win 1).blk t).view.emb (ix3 0 q k)) = _
  refine congrArg (conArr m c) (funext fun a => Fin.ext ?_)
  match a with
  | ⟨0, _⟩ => show win0_1.index t (0 : Fin 3) * 1 + 1 * 0 = win0_9.index t (0 : Fin 4); omega
  | ⟨1, _⟩ => show win0_1.index t (1 : Fin 3) * 32 + 1 * q.val = 32 * win0_9.index t (2 : Fin 4) + q.val; omega
  | ⟨2, _⟩ => show win0_1.index t (2 : Fin 3) * 768 + 1 * k.val = k.val; omega

/-- Each weight window holds the whole of its group at every point: rows `768 g ..` of the first-layer weight. -/
theorem w0_apply (c : Dev nD) (t : Fin cfg0.N) (k : Fin 768) (h : Fin 1024) :
    (iblk m c 2 t : S768x1024.Idx → EReal) (ix2 k h) = w1Arg m c (ix2 (wrow 0 k) h) := by
  have e := idx_facts t
  have hb : (iblk m c 2 t : S768x1024.Idx → EReal) (ix2 k h) = (V m c main_v4 : S768x1024.Idx → EReal) (ix2 k h) := by
    show (V m c main_v4 : S768x1024.Idx → EReal) (((cfg0.win 2).blk t).view.emb (ix2 k h)) = _
    refine congrArg (V m c main_v4 : S768x1024.Idx → EReal) (funext fun a => Fin.ext ?_)
    match a with
    | ⟨0, _⟩ => show win0_2.index t (0 : Fin 2) * 768 + 1 * k.val = k.val; omega
    | ⟨1, _⟩ => show win0_2.index t (1 : Fin 2) * 1024 + 1 * h.val = h.val; omega
  rw [hb, Entry.V_v4 m c]
  exact extractStridedSlice_apply _ _ _ (ix2 k h) (ix2 (wrow 0 k) h) (fun a => by
    match a with
    | ⟨0, _⟩ => show 768 * 0 + k.val = 0 + k.val; omega
    | ⟨1, _⟩ => show h.val = 0 + h.val; omega)
theorem w1_apply (c : Dev nD) (t : Fin cfg0.N) (k : Fin 768) (h : Fin 1024) :
    (iblk m c 3 t : S768x1024.Idx → EReal) (ix2 k h) = w1Arg m c (ix2 (wrow 1 k) h) := by
  have e := idx_facts t
  have hb : (iblk m c 3 t : S768x1024.Idx → EReal) (ix2 k h) = (V m c main_v5 : S768x1024.Idx → EReal) (ix2 k h) := by
    show (V m c main_v5 : S768x1024.Idx → EReal) (((cfg0.win 3).blk t).view.emb (ix2 k h)) = _
    refine congrArg (V m c main_v5 : S768x1024.Idx → EReal) (funext fun a => Fin.ext ?_)
    match a with
    | ⟨0, _⟩ => show win0_3.index t (0 : Fin 2) * 768 + 1 * k.val = k.val; omega
    | ⟨1, _⟩ => show win0_3.index t (1 : Fin 2) * 1024 + 1 * h.val = h.val; omega
  rw [hb, Entry.V_v5 m c]
  exact extractStridedSlice_apply _ _ _ (ix2 k h) (ix2 (wrow 1 k) h) (fun a => by
    match a with
    | ⟨0, _⟩ => show 768 * 1 + k.val = 768 + k.val; omega
    | ⟨1, _⟩ => show h.val = 0 + h.val; omega)
theorem w2g_apply (c : Dev nD) (t : Fin cfg0.N) (k : Fin 768) (h : Fin 1024) :
    (iblk m c 4 t : S768x1024.Idx → EReal) (ix2 k h) = w1Arg m c (ix2 (wrow 2 k) h) := by
  have e := idx_facts t
  have hb : (iblk m c 4 t : S768x1024.Idx → EReal) (ix2 k h) = (V m c main_v6 : S768x1024.Idx → EReal) (ix2 k h) := by
    show (V m c main_v6 : S768x1024.Idx → EReal) (((cfg0.win 4).blk t).view.emb (ix2 k h)) = _
    refine congrArg (V m c main_v6 : S768x1024.Idx → EReal) (funext fun a => Fin.ext ?_)
    match a with
    | ⟨0, _⟩ => show win0_4.index t (0 : Fin 2) * 768 + 1 * k.val = k.val; omega
    | ⟨1, _⟩ => show win0_4.index t (1 : Fin 2) * 1024 + 1 * h.val = h.val; omega
  rw [hb, Entry.V_v6 m c]
  exact extractStridedSlice_apply _ _ _ (ix2 k h) (ix2 (wrow 2 k) h) (fun a => by
    match a with
    | ⟨0, _⟩ => show 768 * 2 + k.val = 1536 + k.val; omega
    | ⟨1, _⟩ => show h.val = 0 + h.val; omega)
theorem w3_apply (c : Dev nD) (t : Fin cfg0.N) (k : Fin 768) (h : Fin 1024) :
    (iblk m c 5 t : S768x1024.Idx → EReal) (ix2 k h) = w1Arg m c (ix2 (wrow 3 k) h) := by
  have e := idx_facts t
  have hb : (iblk m c 5 t : S768x1024.Idx → EReal) (ix2 k h) = (V m c main_v7 : S768x1024.Idx → EReal) (ix2 k h) := by
    show (V m c main_v7 : S768x1024.Idx → EReal) (((cfg0.win 5).blk t).view.emb (ix2 k h)) = _
    refine congrArg (V m c main_v7 : S768x1024.Idx → EReal) (funext fun a => Fin.ext ?_)
    match a with
    | ⟨0, _⟩ => show win0_5.index t (0 : Fin 2) * 768 + 1 * k.val = k.val; omega
    | ⟨1, _⟩ => show win0_5.index t (1 : Fin 2) * 1024 + 1 * h.val = h.val; omega
  rw [hb, Entry.V_v7 m c]
  exact extractStridedSlice_apply _ _ _ (ix2 k h) (ix2 (wrow 3 k) h) (fun a => by
    match a with
    | ⟨0, _⟩ => show 768 * 3 + k.val = 2304 + k.val; omega
    | ⟨1, _⟩ => show h.val = 0 + h.val; omega)

/-- The first bias, the second-layer weight and the second bias, whole at every point. -/
theorem b1_apply (c : Dev nD) (t : Fin cfg0.N) (h : Fin 1024) :
    (iblk m c 6 t : S1024.Idx → EReal) (ix1 h) = b1Arg m c (ix1 h) := by
  have e := idx_facts t
  have hb : (iblk m c 6 t : S1024.Idx → EReal) (ix1 h) = (V m c main_arg3 : S1024.Idx → EReal) (ix1 h) := by
    show (V m c main_arg3 : S1024.Idx → EReal) (((cfg0.win 6).blk t).view.emb (ix1 h)) = _
    refine congrArg (V m c main_arg3 : S1024.Idx → EReal) (funext fun a => Fin.ext ?_)
    match a with
    | ⟨0, _⟩ => show win0_6.index t (0 : Fin 1) * 1024 + 1 * h.val = h.val; omega
  rw [hb, V_main_arg3 m c]

theorem w2_apply (c : Dev nD) (t : Fin cfg0.N) (h : Fin 1024) (l : Fin 16) :
    (iblk m c 7 t : S1024x16.Idx → EReal) (ix2 h l) = w2Arg m c (ix2 h l) := by
  have e := idx_facts t
  have hb : (iblk m c 7 t : S1024x16.Idx → EReal) (ix2 h l) = (V m c main_v8 : S1024x16.Idx → EReal) (ix2 h l) := by
    show (V m c main_v8 : S1024x16.Idx → EReal) (((cfg0.win 7).blk t).view.emb (ix2 h l)) = _
    refine congrArg (V m c main_v8 : S1024x16.Idx → EReal) (funext fun a => Fin.ext ?_)
    match a with
    | ⟨0, _⟩ => show win0_7.index t (0 : Fin 2) * 1024 + 1 * h.val = h.val; omega
    | ⟨1, _⟩ => show win0_7.index t (1 : Fin 2) * 16 + 1 * l.val = l.val; omega
  rw [hb, Entry.V_v8 m c]
  rfl

theorem b2_apply (c : Dev nD) (t : Fin cfg0.N) (l : Fin 16) :
    (iblk m c 8 t : S16.Idx → EReal) (ix1 l) = b2Arg m c (ix1 l) := by
  have e := idx_facts t
  have hb : (iblk m c 8 t : S16.Idx → EReal) (ix1 l) = (V m c main_arg5 : S16.Idx → EReal) (ix1 l) := by
    show (V m c main_arg5 : S16.Idx → EReal) (((cfg0.win 8).blk t).view.emb (ix1 l)) = _
    refine congrArg (V m c main_arg5 : S16.Idx → EReal) (funext fun a => Fin.ext ?_)
    match a with
    | ⟨0, _⟩ => show win0_8.index t (0 : Fin 1) * 16 + 1 * l.val = l.val; omega
  rw [hb, V_main_arg5 m c]

/-! ## What a point writes back -/

/-- The hidden layer the body computes from its blocks at point `t` is the hidden layer of the pair
    `(32 i + p, 32 j + q)` of batch `b`. -/
theorem hidden_eq (c : Dev nD) (t : Fin cfg0.N) (p q : Fin 32) (h : Fin 1024) :
    blockHidden (iblk m c 0 t) (iblk m c 1 t) (iblk m c 2 t) (iblk m c 3 t) (iblk m c 4 t) (iblk m c 5 t) (iblk m c 6 t) p q h
      = Cert.Scores.hidden (conArr m c) (w1Arg m c) (b1Arg m c) (pb t) (at32 (pi t) p) (at32 (pj t) q) h := by
  unfold blockHidden Cert.Scores.hidden groupSum
  simp only [feat_zero, feat_one, feat_two, feat_three, rowBlk_apply, colBlk_apply, w0_apply, w1_apply, w2g_apply, w3_apply, b1_apply]

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- WHAT POINT `t` WRITES BACK is block `t` of `result`. -/
theorem flushed_eq (c : Dev nD) (t : Fin cfg0.N) :
    (dats m 0 c).flushed 9 t = ((cfg0.win 9).blk t).view.read (Elt Ideal) (result m c) := by
  show (cfg0.win 9).cut (grid0.coords t) ((dats m 0 c).after 9 t) = _
  rw [after9]
  unfold outBlock
  rw [View.canon_unit_zero hz4]
  simp only [View.ld_unit_zero (S := S1x32x768) hz3, View.ld_unit_zero (S := S768x1024) hz2, View.ld_unit_zero (S := S1024) hz1,
    View.ld_unit_zero (S := S1024x16) hz2, View.ld_unit_zero (S := S16) hz1]
  refine funext fun (j : S1x32x32x16.Idx) => ?_
  have h0 : j 0 = (0 : Fin 1) := Fin.ext (by
    have hlt : (j 0).val < 1 := (j 0).isLt
    show (j 0).val = 0
    omega)
  obtain ⟨p, q, l, rfl⟩ : ∃ (p q : Fin 32) (l : Fin 16), j = ix4 0 p q l :=
    ⟨j 1, j 2, j 3, (eq_ix4 j).trans (congrArg (fun a => ix4 a (j 1) (j 2) (j 3)) h0)⟩
  refine (stored_apply (iblk m c 0 t) (iblk m c 1 t) (iblk m c 2 t) (iblk m c 3 t) (iblk m c 4 t) (iblk m c 5 t) (iblk m c 6 t)
    (iblk m c 7 t) (iblk m c 8 t) p q l).trans ?_
  obtain ⟨-, -, -, -, -, -, -, -, -, -, -, -, -, -, -, -, -, -, e3, -⟩ := idx_facts t
  have he : ((cfg0.win 9).blk t).view.emb (ix4 0 p q l) = ix4 (pb t) (at32 (pi t) p) (at32 (pj t) q) l := by
    funext a; apply Fin.ext
    match a with
    | ⟨0, _⟩ => show win0_9.index t (0 : Fin 4) * 1 + 1 * 0 = win0_9.index t (0 : Fin 4); omega
    | ⟨1, _⟩ => show win0_9.index t (1 : Fin 4) * 32 + 1 * p.val = 32 * win0_9.index t (1 : Fin 4) + p.val; omega
    | ⟨2, _⟩ => show win0_9.index t (2 : Fin 4) * 32 + 1 * q.val = 32 * win0_9.index t (2 : Fin 4) + q.val; omega
    | ⟨3, _⟩ => show win0_9.index t (3 : Fin 4) * 16 + 1 * l.val = l.val; omega
  show _ = result m c (((cfg0.win 9).blk t).view.emb (ix4 0 p q l))
  rw [he]
  unfold result
  rw [scores_apply]
  simp only [hidden_eq, w2_apply, b2_apply]

/-! ## The blocks tile the result -/

/-- An index of the result is in point `t`'s block iff each coordinate is in the block's range on its axis. -/
theorem mem_blk (t : Fin cfg0.N) (i : S4x128x128x16.Idx) :
    i ∈ ((cfg0.win 9).blk t).view.set ↔ ∀ a : Fin 4, win0_9.index t a * S1x32x32x16.size a ≤ (i a).val
      ∧ (i a).val < win0_9.index t a * S1x32x32x16.size a + S1x32x32x16.size a := by
  show i ∈ ((View.whole main_v9).slice (win0_9.rect t)).set ↔ _
  rw [View.set_slice_whole, Rect.mem_set_unit]
  exact Iff.rfl

/-- Every index of the result lies in the block of the point `(i 0, i 1 / 32, i 2 / 32)`. -/
theorem covered (i : S4x128x128x16.Idx) :
    ∃ t : Fin cfg0.N, (cfg0.win 9).flush t = true ∧ i ∈ ((cfg0.win 9).blk t).view.set := by
  have hi0 : (i 0).val < 4 := (i 0).isLt
  have hi1 : (i 1).val < 128 := (i 1).isLt
  have hi2 : (i 2).val < 128 := (i 2).isLt
  have hi3 : (i 3).val < 16 := (i 3).isLt
  obtain ⟨t, ht⟩ := idx_onto ⟨(i 0).val, hi0⟩ ⟨(i 1).val / 32, by omega⟩ ⟨(i 2).val / 32, by omega⟩
  have q0 : win0_9.index t (0 : Fin 4) = (i 0).val := congrFun ht 0
  have q1 : win0_9.index t (1 : Fin 4) = (i 1).val / 32 := congrFun ht 1
  have q2 : win0_9.index t (2 : Fin 4) = (i 2).val / 32 := congrFun ht 2
  have q3 : win0_9.index t (3 : Fin 4) = 0 := congrFun ht 3
  refine ⟨t, flush0_9 t, ?_⟩
  rw [mem_blk]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 32 ≤ (i 1).val ∧ (i 1).val < win0_9.index t (1 : Fin 4) * 32 + 32; omega
  | ⟨2, _⟩ => show win0_9.index t (2 : Fin 4) * 32 ≤ (i 2).val ∧ (i 2).val < win0_9.index t (2 : Fin 4) * 32 + 32; omega
  | ⟨3, _⟩ => show win0_9.index t (3 : Fin 4) * 16 ≤ (i 3).val ∧ (i 3).val < win0_9.index t (3 : Fin 4) * 16 + 16; omega

/-- THE RESULT ARRAY after the run: the scores, everywhere. -/
theorem final (c : Dev nD) : (dats m 0 c).arrAt 9 cfg0.N = result m c :=
  (dats m 0 c).arrAt_eq_of_cover 9 (result m c) (fun t _ => flushed_eq m c t) covered

/-- The gathered rows the region finds are the gather of the arguments: a change of float format is the identity. -/
theorem conArr_eq (c : Dev nD) :
    conArr m c = Entry.gathered (F := Ideal) (m ((c : Thread nD τ).loc main_arg0)) (m ((c : Thread nD τ).loc main_arg1)) := by
  show (V m c main_v2 : SCon.Idx → EReal) = _
  rw [Entry.V_v2 m c]
  rfl

/-! ## The run, read -/

/-- Every weakly fair execution of @main terminates with the result array at the scores of the arguments. -/
theorem run : θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 9).trans (final m c), kept_args m r h c⟩) (run_main m ρ)

end Cert.KernelIdeal.PairValue

end
-- ==== Proof.RefRun.lean ====
/-
  The reference program's run: every weakly fair execution of its @main terminates with the result buffer at the
  composed value of its operations, the arguments unchanged.

  @main is a straight line of 39 host operations. Read in one piece, the value of the last buffer repeats the
  gathered rows six times (the row and the column features, each used in three of the four feature groups), so the
  line is read in THREE STRETCHES: the 23 operations that make the gathered rows; the 6 that spread them into row and
  column features and form the difference and the product; the 10 that join the four feature groups and apply the two
  layers. Each stretch is read over whatever the one before left; the cut before the join lets the join read its four
  operands where they stand. The first stretch ends in the gather stage `val_main_v1`, none writes an argument, and
  the three values composed are the last stage `val_main_v17`.
-/
import proofs.«156064_j13993003450895_1_alg».proof.Proof.RefRead
import Idealize.ShloMosaic.Lib.Pipeline.Frame

set_option maxRecDepth 16384

noncomputable section

namespace Cert.ReferenceIdeal.Stretches

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- The index column and the operations of the row gather: they end in the gathered rows `main_v1`. -/
abbrev opsGather : List (HloOp τ sig (Elt F)) :=
  [ unary main_arg1 main_v0 (broadcastInDim S4x128x1 ![0, 1] bcast_S4x128_S4x128x1_0_1 : (⟨S4x128, .i32⟩ : BufTy).Contents (Elt F) → (⟨S4x128x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S4x128x1, .i32⟩) main_call0_v0) (broadcastInDim S4x128x1 ![] bcast_S_S4x128x1),
    TRef.binary (TRef.of (T := ⟨S4x128x1, .i32⟩) main_v0) (TRef.of (T := ⟨S4x128x1, .i32⟩) main_call0_v0) (TRef.of (T := ⟨S4x128x1, .i1⟩) main_call0_v1) (cmpi .slt),
    TRef.nullary (TRef.of (T := ⟨S_, .i32⟩) main_call0_c_0) (constantI S_ 32 256#32),
    TRef.unary (TRef.of (T := ⟨S_, .i32⟩) main_call0_c_0) (TRef.of (T := ⟨S4x128x1, .i32⟩) main_call0_v2) (broadcastInDim S4x128x1 ![] bcast_S_S4x128x1),
    TRef.binary (TRef.of (T := ⟨S4x128x1, .i32⟩) main_v0) (TRef.of (T := ⟨S4x128x1, .i32⟩) main_call0_v2) (TRef.of (T := ⟨S4x128x1, .i32⟩) main_call0_v3) addi,
    TRef.ternary (TRef.of (T := ⟨S4x128x1, .i1⟩) main_call0_v1) (TRef.of (T := ⟨S4x128x1, .i32⟩) main_call0_v3) (TRef.of (T := ⟨S4x128x1, .i32⟩) main_v0) (TRef.of (T := ⟨S4x128x1, .i32⟩) main_call0_v4) select,
    TRef.nullary (TRef.of (T := ⟨S1, .i32⟩) main_call0_c_1) (constantI S1 32 255#32),
    TRef.nullary (TRef.of (T := ⟨S_, .i32⟩) main_call0_c_2) (constantI S_ 32 0#32),
    TRef.unary (TRef.of (T := ⟨S_, .i32⟩) main_call0_c_2) (TRef.of (T := ⟨S4x128x1, .i32⟩) main_call0_v5) (broadcastInDim S4x128x1 ![] bcast_S_S4x128x1),
    TRef.binary (TRef.of (T := ⟨S4x128x1, .i32⟩) main_call0_v4) (TRef.of (T := ⟨S4x128x1, .i32⟩) main_call0_v5) (TRef.of (T := ⟨S4x128x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S4x128x1, .i32⟩) main_call0_v8) (broadcastInDim S4x128x1 ![0, 1, 2] bcast_S1x1x1_S4x128x1_0_1_2),
    TRef.binary (TRef.of (T := ⟨S4x128x1, .i32⟩) main_call0_v4) (TRef.of (T := ⟨S4x128x1, .i32⟩) main_call0_v8) (TRef.of (T := ⟨S4x128x1, .i1⟩) main_call0_v9) (cmpi .sle),
    TRef.binary (TRef.of (T := ⟨S4x128x1, .i1⟩) main_call0_v6) (TRef.of (T := ⟨S4x128x1, .i1⟩) main_call0_v9) (TRef.of (T := ⟨S4x128x1, .i1⟩) main_call0_v10) andi,
    TRef.nullary (TRef.of (T := ⟨S_, .i1⟩) main_call0_c_3) (constantI S_ 1 1#1),
    TRef.binary (TRef.of (T := ⟨S4x128x1, .i1⟩) main_call0_v10) (TRef.of (T := ⟨S_, .i1⟩) main_call0_c_3) (TRef.of (T := ⟨S4x128, .i1⟩) main_call0_v11) (fun x v => Host.reduce IntOp.andi x v reducesTo_S4x128x1_S4x128_d2 h_S_),
    TRef.binary (TRef.of (T := ⟨S4x256x768, .f32⟩) main_arg0) (TRef.of (T := ⟨S4x128x1, .i32⟩) main_call0_v4) (TRef.of (T := ⟨S4x128x768, .f32⟩) main_call0_v12) (fun x i => Host.gather gather_S4x256x768_S4x128x1_S4x128x768_2_1_0_0_1_2_11768 x i),
    TRef.unary (TRef.of (T := ⟨S4x128, .i1⟩) main_call0_v11) (TRef.of (T := ⟨S4x128x768, .i1⟩) main_call0_v13) (broadcastInDim S4x128x768 ![0, 1] bcast_S4x128_S4x128x768_0_1),
    TRef.nullary (TRef.of (T := ⟨S_, .f32⟩) main_call0_cst) (constant S_ .f32 0x7FC00000#32),
    TRef.unary (TRef.of (T := ⟨S_, .f32⟩) main_call0_cst) (TRef.of (T := ⟨S4x128x768, .f32⟩) main_call0_v14) (broadcastInDim S4x128x768 ![] bcast_S_S4x128x768),
    TRef.ternary (TRef.of (T := ⟨S4x128x768, .i1⟩) main_call0_v13) (TRef.of (T := ⟨S4x128x768, .f32⟩) main_call0_v12) (TRef.of (T := ⟨S4x128x768, .f32⟩) main_call0_v14) (TRef.of (T := ⟨S4x128x768, .f32⟩) main_v1) select ]

/-- The row and column features, their difference and their product. -/
abbrev opsFeatures : List (HloOp τ sig (Elt F)) :=
  [ unary main_v1 main_v2 (broadcastInDim S4x128x1x768 ![0, 1, 3] bcast_S4x128x768_S4x128x1x768_0_1_3 : (⟨S4x128x768, .f32⟩ : BufTy).Contents (Elt F) → (⟨S4x128x1x768, .f32⟩ : BufTy).Contents (Elt F)),
    unary main_v2 main_v3 (broadcastInDim S4x128x128x768 ![0, 1, 2, 3] bcast_S4x128x1x768_S4x128x128x768_0_1_2_3 : (⟨S4x128x1x768, .f32⟩ : BufTy).Contents (Elt F) → (⟨S4x128x128x768, .f32⟩ : BufTy).Contents (Elt F)),
    unary main_v1 main_v4 (broadcastInDim S4x1x128x768 ![0, 2, 3] bcast_S4x128x768_S4x1x128x768_0_2_3 : (⟨S4x128x768, .f32⟩ : BufTy).Contents (Elt F) → (⟨S4x1x128x768, .f32⟩ : BufTy).Contents (Elt F)),
    unary main_v4 main_v5 (broadcastInDim S4x128x128x768 ![0, 1, 2, 3] bcast_S4x1x128x768_S4x128x128x768_0_1_2_3 : (⟨S4x1x128x768, .f32⟩ : BufTy).Contents (Elt F) → (⟨S4x128x128x768, .f32⟩ : BufTy).Contents (Elt F)),
    binary main_v3 main_v5 main_v6 (subf : (⟨S4x128x128x768, .f32⟩ : BufTy).Contents (Elt F) → (⟨S4x128x128x768, .f32⟩ : BufTy).Contents (Elt F) → (⟨S4x128x128x768, .f32⟩ : BufTy).Contents (Elt F)),
    binary main_v3 main_v5 main_v7 (mulf : (⟨S4x128x128x768, .f32⟩ : BufTy).Contents (Elt F) → (⟨S4x128x128x768, .f32⟩ : BufTy).Contents (Elt F) → (⟨S4x128x128x768, .f32⟩ : BufTy).Contents (Elt F)) ]

/-- The four groups joined, and the two layers: they end in the result `main_v17`. -/
abbrev opsLayers : List (HloOp τ sig (Elt F)) :=
  [ nary ![main_v3, main_v5, main_v6, main_v7] main_v8 (fun u => concatenate S4x128x128x3072 3 [⟨S4x128x128x768, u 0⟩, ⟨S4x128x128x768, u 1⟩, ⟨S4x128x128x768, u 2⟩, ⟨S4x128x128x768, u 3⟩] concatenates_S4x128x128x768_S4x128x128x768_S4x128x128x768_S4x128x128x768_S4x128x128x3072_d3),
    binary main_v8 main_arg2 main_v9 ((fun l r => Host.dotGeneral dot_S4x128x128x3072_S3072x1024_S4x128x128x1024_3_0_012_1_n_n none l r) : (⟨S4x128x128x3072, .f32⟩ : BufTy).Contents (Elt F) → (⟨S3072x1024, .f32⟩ : BufTy).Contents (Elt F) → (⟨S4x128x128x1024, .f32⟩ : BufTy).Contents (Elt F)),
    unary main_arg3 main_v10 (broadcastInDim S1x1x1x1024 ![3] bcast_S1024_S1x1x1x1024_3 : (⟨S1024, .f32⟩ : BufTy).Contents (Elt F) → (⟨S1x1x1x1024, .f32⟩ : BufTy).Contents (Elt F)),
    unary main_v10 main_v11 (broadcastInDim S4x128x128x1024 ![0, 1, 2, 3] bcast_S1x1x1x1024_S4x128x128x1024_0_1_2_3 : (⟨S1x1x1x1024, .f32⟩ : BufTy).Contents (Elt F) → (⟨S4x128x128x1024, .f32⟩ : BufTy).Contents (Elt F)),
    binary main_v9 main_v11 main_v12 (addf : (⟨S4x128x128x1024, .f32⟩ : BufTy).Contents (Elt F) → (⟨S4x128x128x1024, .f32⟩ : BufTy).Contents (Elt F) → (⟨S4x128x128x1024, .f32⟩ : BufTy).Contents (Elt F)),
    unary main_v12 main_v13 (Host.tanh : (⟨S4x128x128x1024, .f32⟩ : BufTy).Contents (Elt F) → (⟨S4x128x128x1024, .f32⟩ : BufTy).Contents (Elt F)),
    binary main_v13 main_arg4 main_v14 ((fun l r => Host.dotGeneral dot_S4x128x128x1024_S1024x16_S4x128x128x16_3_0_012_1_n_n none l r) : (⟨S4x128x128x1024, .f32⟩ : BufTy).Contents (Elt F) → (⟨S1024x16, .f32⟩ : BufTy).Contents (Elt F) → (⟨S4x128x128x16, .f32⟩ : BufTy).Contents (Elt F)),
    unary main_arg5 main_v15 (broadcastInDim S1x1x1x16 ![3] bcast_S16_S1x1x1x16_3 : (⟨S16, .f32⟩ : BufTy).Contents (Elt F) → (⟨S1x1x1x16, .f32⟩ : BufTy).Contents (Elt F)),
    unary main_v15 main_v16 (broadcastInDim S4x128x128x16 ![0, 1, 2, 3] bcast_S1x1x1x16_S4x128x128x16_0_1_2_3 : (⟨S1x1x1x16, .f32⟩ : BufTy).Contents (Elt F) → (⟨S4x128x128x16, .f32⟩ : BufTy).Contents (Elt F)),
    binary main_v14 main_v16 main_v17 (addf : (⟨S4x128x128x16, .f32⟩ : BufTy).Contents (Elt F) → (⟨S4x128x128x16, .f32⟩ : BufTy).Contents (Elt F) → (⟨S4x128x128x16, .f32⟩ : BufTy).Contents (Elt F)) ]

/-- @main's operations, in order. -/
abbrev ops : List (HloOp τ sig (Elt F)) := opsGather ++ (opsFeatures ++ opsLayers)

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem opsGather_sub : (opsGather : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem opsFeatures_sub : (opsFeatures : List (HloOp τ sig (Elt F))).Forall fun op => op.bufs ⊆ tcRefs τ sig :=
  ⟨unary_bufs_sub .., unary_bufs_sub .., unary_bufs_sub .., unary_bufs_sub .., binary_bufs_sub .., binary_bufs_sub ..⟩
theorem opsLayers_sub : (opsLayers : List (HloOp τ sig (Elt F))).Forall fun op => op.bufs ⊆ tcRefs τ sig :=
  ⟨nary_bufs_sub .., binary_bufs_sub .., unary_bufs_sub .., unary_bufs_sub .., binary_bufs_sub .., unary_bufs_sub .., binary_bufs_sub .., unary_bufs_sub .., unary_bufs_sub .., binary_bufs_sub ..⟩
theorem ops_sub : (ops : List (HloOp τ sig (Elt F))).Forall fun op => op.bufs ⊆ tcRefs τ sig :=
  List.forall_append.mpr ⟨opsGather_sub, List.forall_append.mpr ⟨opsFeatures_sub, opsLayers_sub⟩⟩

theorem opsGather_fresh : ∀ op ∈ (opsGather : List (HloOp τ sig (Elt F))), op.fresh = ∅ :=
  List.forall_iff_forall_mem.mp (by simp only [opsGather, List.Forall]; repeat' constructor)
theorem opsFeatures_fresh : ∀ op ∈ (opsFeatures : List (HloOp τ sig (Elt F))), op.fresh = ∅ :=
  List.forall_iff_forall_mem.mp (by simp only [opsFeatures, List.Forall]; repeat' constructor)
theorem opsLayers_fresh : ∀ op ∈ (opsLayers : List (HloOp τ sig (Elt F))), op.fresh = ∅ :=
  List.forall_iff_forall_mem.mp (by simp only [opsLayers, List.Forall]; repeat' constructor)

/-! No stretch writes an argument. -/
theorem opsGather_keeps_arg0 (W : Valuation τ sig (Elt F)) :
    after (opsGather : List (HloOp τ sig (Elt F))) W (Proc.devRef .tc main_arg0) = W (Proc.devRef .tc main_arg0) :=
  after_of_forall_not_mem (b := Proc.devRef .tc main_arg0) _ _ (List.forall_iff_forall_mem.mp (by
    simp only [opsGather, List.Forall, nullary_writes, unary_writes, binary_writes, ternary_writes, nary_writes, Finset.mem_singleton]
    repeat' apply And.intro
    all_goals exact devRef_ne_of_ne (by decide)))
theorem opsGather_keeps_arg1 (W : Valuation τ sig (Elt F)) :
    after (opsGather : List (HloOp τ sig (Elt F))) W (Proc.devRef .tc main_arg1) = W (Proc.devRef .tc main_arg1) :=
  after_of_forall_not_mem (b := Proc.devRef .tc main_arg1) _ _ (List.forall_iff_forall_mem.mp (by
    simp only [opsGather, List.Forall, nullary_writes, unary_writes, binary_writes, ternary_writes, nary_writes, Finset.mem_singleton]
    repeat' apply And.intro
    all_goals exact devRef_ne_of_ne (by decide)))
theorem opsGather_keeps_arg2 (W : Valuation τ sig (Elt F)) :
    after (opsGather : List (HloOp τ sig (Elt F))) W (Proc.devRef .tc main_arg2) = W (Proc.devRef .tc main_arg2) :=
  after_of_forall_not_mem (b := Proc.devRef .tc main_arg2) _ _ (List.forall_iff_forall_mem.mp (by
    simp only [opsGather, List.Forall, nullary_writes, unary_writes, binary_writes, ternary_writes, nary_writes, Finset.mem_singleton]
    repeat' apply And.intro
    all_goals exact devRef_ne_of_ne (by decide)))
theorem opsGather_keeps_arg3 (W : Valuation τ sig (Elt F)) :
    after (opsGather : List (HloOp τ sig (Elt F))) W (Proc.devRef .tc main_arg3) = W (Proc.devRef .tc main_arg3) :=
  after_of_forall_not_mem (b := Proc.devRef .tc main_arg3) _ _ (List.forall_iff_forall_mem.mp (by
    simp only [opsGather, List.Forall, nullary_writes, unary_writes, binary_writes, ternary_writes, nary_writes, Finset.mem_singleton]
    repeat' apply And.intro
    all_goals exact devRef_ne_of_ne (by decide)))
theorem opsGather_keeps_arg4 (W : Valuation τ sig (Elt F)) :
    after (opsGather : List (HloOp τ sig (Elt F))) W (Proc.devRef .tc main_arg4) = W (Proc.devRef .tc main_arg4) :=
  after_of_forall_not_mem (b := Proc.devRef .tc main_arg4) _ _ (List.forall_iff_forall_mem.mp (by
    simp only [opsGather, List.Forall, nullary_writes, unary_writes, binary_writes, ternary_writes, nary_writes, Finset.mem_singleton]
    repeat' apply And.intro
    all_goals exact devRef_ne_of_ne (by decide)))
theorem opsGather_keeps_arg5 (W : Valuation τ sig (Elt F)) :
    after (opsGather : List (HloOp τ sig (Elt F))) W (Proc.devRef .tc main_arg5) = W (Proc.devRef .tc main_arg5) :=
  after_of_forall_not_mem (b := Proc.devRef .tc main_arg5) _ _ (List.forall_iff_forall_mem.mp (by
    simp only [opsGather, List.Forall, nullary_writes, unary_writes, binary_writes, ternary_writes, nary_writes, Finset.mem_singleton]
    repeat' apply And.intro
    all_goals exact devRef_ne_of_ne (by decide)))
theorem opsFeatures_keeps_arg2 (W : Valuation τ sig (Elt F)) :
    after (opsFeatures : List (HloOp τ sig (Elt F))) W (Proc.devRef .tc main_arg2) = W (Proc.devRef .tc main_arg2) :=
  after_of_forall_not_mem (b := Proc.devRef .tc main_arg2) _ _ (List.forall_iff_forall_mem.mp (by
    simp only [opsFeatures, List.Forall, nullary_writes, unary_writes, binary_writes, ternary_writes, nary_writes, Finset.mem_singleton]
    repeat' apply And.intro
    all_goals exact devRef_ne_of_ne (by decide)))
theorem opsFeatures_keeps_arg3 (W : Valuation τ sig (Elt F)) :
    after (opsFeatures : List (HloOp τ sig (Elt F))) W (Proc.devRef .tc main_arg3) = W (Proc.devRef .tc main_arg3) :=
  after_of_forall_not_mem (b := Proc.devRef .tc main_arg3) _ _ (List.forall_iff_forall_mem.mp (by
    simp only [opsFeatures, List.Forall, nullary_writes, unary_writes, binary_writes, ternary_writes, nary_writes, Finset.mem_singleton]
    repeat' apply And.intro
    all_goals exact devRef_ne_of_ne (by decide)))
theorem opsFeatures_keeps_arg4 (W : Valuation τ sig (Elt F)) :
    after (opsFeatures : List (HloOp τ sig (Elt F))) W (Proc.devRef .tc main_arg4) = W (Proc.devRef .tc main_arg4) :=
  after_of_forall_not_mem (b := Proc.devRef .tc main_arg4) _ _ (List.forall_iff_forall_mem.mp (by
    simp only [opsFeatures, List.Forall, nullary_writes, unary_writes, binary_writes, ternary_writes, nary_writes, Finset.mem_singleton]
    repeat' apply And.intro
    all_goals exact devRef_ne_of_ne (by decide)))
theorem opsFeatures_keeps_arg5 (W : Valuation τ sig (Elt F)) :
    after (opsFeatures : List (HloOp τ sig (Elt F))) W (Proc.devRef .tc main_arg5) = W (Proc.devRef .tc main_arg5) :=
  after_of_forall_not_mem (b := Proc.devRef .tc main_arg5) _ _ (List.forall_iff_forall_mem.mp (by
    simp only [opsFeatures, List.Forall, nullary_writes, unary_writes, binary_writes, ternary_writes, nary_writes, Finset.mem_singleton]
    repeat' apply And.intro
    all_goals exact devRef_ne_of_ne (by decide)))
theorem opsFeatures_keeps_arg0 (W : Valuation τ sig (Elt F)) :
    after (opsFeatures : List (HloOp τ sig (Elt F))) W (Proc.devRef .tc main_arg0) = W (Proc.devRef .tc main_arg0) :=
  after_of_forall_not_mem (b := Proc.devRef .tc main_arg0) _ _ (List.forall_iff_forall_mem.mp (by
    simp only [opsFeatures, List.Forall, nullary_writes, unary_writes, binary_writes, ternary_writes, nary_writes, Finset.mem_singleton]
    repeat' apply And.intro
    all_goals exact devRef_ne_of_ne (by decide)))
theorem opsFeatures_keeps_arg1 (W : Valuation τ sig (Elt F)) :
    after (opsFeatures : List (HloOp τ sig (Elt F))) W (Proc.devRef .tc main_arg1) = W (Proc.devRef .tc main_arg1) :=
  after_of_forall_not_mem (b := Proc.devRef .tc main_arg1) _ _ (List.forall_iff_forall_mem.mp (by
    simp only [opsFeatures, List.Forall, nullary_writes, unary_writes, binary_writes, ternary_writes, nary_writes, Finset.mem_singleton]
    repeat' apply And.intro
    all_goals exact devRef_ne_of_ne (by decide)))
theorem opsLayers_keeps_arg0 (W : Valuation τ sig (Elt F)) :
    after (opsLayers : List (HloOp τ sig (Elt F))) W (Proc.devRef .tc main_arg0) = W (Proc.devRef .tc main_arg0) :=
  after_of_forall_not_mem (b := Proc.devRef .tc main_arg0) _ _ (List.forall_iff_forall_mem.mp (by
    simp only [opsLayers, List.Forall, nullary_writes, unary_writes, binary_writes, ternary_writes, nary_writes, Finset.mem_singleton]
    repeat' apply And.intro
    all_goals exact devRef_ne_of_ne (by decide)))
theorem opsLayers_keeps_arg1 (W : Valuation τ sig (Elt F)) :
    after (opsLayers : List (HloOp τ sig (Elt F))) W (Proc.devRef .tc main_arg1) = W (Proc.devRef .tc main_arg1) :=
  after_of_forall_not_mem (b := Proc.devRef .tc main_arg1) _ _ (List.forall_iff_forall_mem.mp (by
    simp only [opsLayers, List.Forall, nullary_writes, unary_writes, binary_writes, ternary_writes, nary_writes, Finset.mem_singleton]
    repeat' apply And.intro
    all_goals exact devRef_ne_of_ne (by decide)))
theorem opsLayers_keeps_arg2 (W : Valuation τ sig (Elt F)) :
    after (opsLayers : List (HloOp τ sig (Elt F))) W (Proc.devRef .tc main_arg2) = W (Proc.devRef .tc main_arg2) :=
  after_of_forall_not_mem (b := Proc.devRef .tc main_arg2) _ _ (List.forall_iff_forall_mem.mp (by
    simp only [opsLayers, List.Forall, nullary_writes, unary_writes, binary_writes, ternary_writes, nary_writes, Finset.mem_singleton]
    repeat' apply And.intro
    all_goals exact devRef_ne_of_ne (by decide)))
theorem opsLayers_keeps_arg3 (W : Valuation τ sig (Elt F)) :
    after (opsLayers : List (HloOp τ sig (Elt F))) W (Proc.devRef .tc main_arg3) = W (Proc.devRef .tc main_arg3) :=
  after_of_forall_not_mem (b := Proc.devRef .tc main_arg3) _ _ (List.forall_iff_forall_mem.mp (by
    simp only [opsLayers, List.Forall, nullary_writes, unary_writes, binary_writes, ternary_writes, nary_writes, Finset.mem_singleton]
    repeat' apply And.intro
    all_goals exact devRef_ne_of_ne (by decide)))
theorem opsLayers_keeps_arg4 (W : Valuation τ sig (Elt F)) :
    after (opsLayers : List (HloOp τ sig (Elt F))) W (Proc.devRef .tc main_arg4) = W (Proc.devRef .tc main_arg4) :=
  after_of_forall_not_mem (b := Proc.devRef .tc main_arg4) _ _ (List.forall_iff_forall_mem.mp (by
    simp only [opsLayers, List.Forall, nullary_writes, unary_writes, binary_writes, ternary_writes, nary_writes, Finset.mem_singleton]
    repeat' apply And.intro
    all_goals exact devRef_ne_of_ne (by decide)))
theorem opsLayers_keeps_arg5 (W : Valuation τ sig (Elt F)) :
    after (opsLayers : List (HloOp τ sig (Elt F))) W (Proc.devRef .tc main_arg5) = W (Proc.devRef .tc main_arg5) :=
  after_of_forall_not_mem (b := Proc.devRef .tc main_arg5) _ _ (List.forall_iff_forall_mem.mp (by
    simp only [opsLayers, List.Forall, nullary_writes, unary_writes, binary_writes, ternary_writes, nary_writes, Finset.mem_singleton]
    repeat' apply And.intro
    all_goals exact devRef_ne_of_ne (by decide)))

/-! ## The first stretch -/

set_option maxHeartbeats 1000000 in
/-- It ends with the gathered rows at the gather stage of the two arguments it reads. -/
theorem gather_stage (W : Valuation τ sig (Elt F)) :
    after (opsGather : List (HloOp τ sig (Elt F))) W (Proc.devRef .tc main_v1)
      = val_main_v1 (F := F) (W (Proc.devRef .tc main_arg0)) (W (Proc.devRef .tc main_arg1)) := by
  after_results
  simp only [TRef.ofBuf, TRef.toBuf, cast_eq]
  rfl

/-! ## The second stretch: the four feature groups over the gathered rows it finds -/

theorem rows_stage (W : Valuation τ sig (Elt F)) :
    (after (opsFeatures : List (HloOp τ sig (Elt F))) W (Proc.devRef .tc main_v3) : (⟨S4x128x128x768, .f32⟩ : BufTy).Contents (Elt F)) = (broadcastInDim S4x128x128x768 ![0, 1, 2, 3] bcast_S4x128x1x768_S4x128x128x768_0_1_2_3 (broadcastInDim S4x128x1x768 ![0, 1, 3] bcast_S4x128x768_S4x128x1x768_0_1_3 (W (Proc.devRef .tc main_v1)))) := by
  after_results
theorem cols_stage (W : Valuation τ sig (Elt F)) :
    (after (opsFeatures : List (HloOp τ sig (Elt F))) W (Proc.devRef .tc main_v5) : (⟨S4x128x128x768, .f32⟩ : BufTy).Contents (Elt F)) = (broadcastInDim S4x128x128x768 ![0, 1, 2, 3] bcast_S4x1x128x768_S4x128x128x768_0_1_2_3 (broadcastInDim S4x1x128x768 ![0, 2, 3] bcast_S4x128x768_S4x1x128x768_0_2_3 (W (Proc.devRef .tc main_v1)))) := by
  after_results
theorem diff_stage (W : Valuation τ sig (Elt F)) :
    (after (opsFeatures : List (HloOp τ sig (Elt F))) W (Proc.devRef .tc main_v6) : (⟨S4x128x128x768, .f32⟩ : BufTy).Contents (Elt F)) = subf (broadcastInDim S4x128x128x768 ![0, 1, 2, 3] bcast_S4x128x1x768_S4x128x128x768_0_1_2_3 (broadcastInDim S4x128x1x768 ![0, 1, 3] bcast_S4x128x768_S4x128x1x768_0_1_3 (W (Proc.devRef .tc main_v1)))) (broadcastInDim S4x128x128x768 ![0, 1, 2, 3] bcast_S4x1x128x768_S4x128x128x768_0_1_2_3 (broadcastInDim S4x1x128x768 ![0, 2, 3] bcast_S4x128x768_S4x1x128x768_0_2_3 (W (Proc.devRef .tc main_v1)))) := by
  after_results
theorem prod_stage (W : Valuation τ sig (Elt F)) :
    (after (opsFeatures : List (HloOp τ sig (Elt F))) W (Proc.devRef .tc main_v7) : (⟨S4x128x128x768, .f32⟩ : BufTy).Contents (Elt F)) = mulf (broadcastInDim S4x128x128x768 ![0, 1, 2, 3] bcast_S4x128x1x768_S4x128x128x768_0_1_2_3 (broadcastInDim S4x128x1x768 ![0, 1, 3] bcast_S4x128x768_S4x128x1x768_0_1_3 (W (Proc.devRef .tc main_v1)))) (broadcastInDim S4x128x128x768 ![0, 1, 2, 3] bcast_S4x1x128x768_S4x128x128x768_0_1_2_3 (broadcastInDim S4x1x128x768 ![0, 2, 3] bcast_S4x128x768_S4x1x128x768_0_2_3 (W (Proc.devRef .tc main_v1)))) := by
  after_results

/-! ## The third stretch: the join and the two layers over the four groups and the parameters it finds -/

/-- The join of four feature groups, the first layer with its bias and `tanh`, the second layer with its bias. -/
def layersOf (a c d e : (⟨S4x128x128x768, .f32⟩ : BufTy).Contents (Elt F)) (x2 : (⟨S3072x1024, .f32⟩ : BufTy).Contents (Elt F)) (x3 : (⟨S1024, .f32⟩ : BufTy).Contents (Elt F))
    (x4 : (⟨S1024x16, .f32⟩ : BufTy).Contents (Elt F)) (x5 : (⟨S16, .f32⟩ : BufTy).Contents (Elt F)) :
    (⟨S4x128x128x16, .f32⟩ : BufTy).Contents (Elt F) :=
  addf (Host.dotGeneral dot_S4x128x128x1024_S1024x16_S4x128x128x16_3_0_012_1_n_n none
      (Host.tanh (addf (Host.dotGeneral dot_S4x128x128x3072_S3072x1024_S4x128x128x1024_3_0_012_1_n_n none
          (concatenate S4x128x128x3072 3 [⟨S4x128x128x768, a⟩, ⟨S4x128x128x768, c⟩, ⟨S4x128x128x768, d⟩, ⟨S4x128x128x768, e⟩]
            concatenates_S4x128x128x768_S4x128x128x768_S4x128x128x768_S4x128x128x768_S4x128x128x3072_d3) x2)
        (broadcastInDim S4x128x128x1024 ![0, 1, 2, 3] bcast_S1x1x1x1024_S4x128x128x1024_0_1_2_3
          (broadcastInDim S1x1x1x1024 ![3] bcast_S1024_S1x1x1x1024_3 x3)))) x4)
    (broadcastInDim S4x128x128x16 ![0, 1, 2, 3] bcast_S1x1x1x16_S4x128x128x16_0_1_2_3
      (broadcastInDim S1x1x1x16 ![3] bcast_S16_S1x1x1x16_3 x5))

set_option maxHeartbeats 1000000 in
theorem layers_stage (W : Valuation τ sig (Elt F)) :
    after (opsLayers : List (HloOp τ sig (Elt F))) W (Proc.devRef .tc main_v17)
      = layersOf (W (Proc.devRef .tc main_v3)) (W (Proc.devRef .tc main_v5)) (W (Proc.devRef .tc main_v6)) (W (Proc.devRef .tc main_v7))
          (W (Proc.devRef .tc main_arg2)) (W (Proc.devRef .tc main_arg3)) (W (Proc.devRef .tc main_arg4)) (W (Proc.devRef .tc main_arg5)) := by
  after_results
  rfl

/-! ## The whole line -/

set_option maxHeartbeats 1000000 in
/-- The result buffer after the whole line: the last stage of the arguments. -/
theorem value (m : (ℓ : Loc nD τ sig) → Buf (Elt F) ℓ) (c : Dev nD) :
    after (ops : List (HloOp τ sig (Elt F))) (launchContents m c) (Proc.devRef .tc main_v17)
      = val_main_v17 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after ((opsGather : List (HloOp τ sig (Elt F))) ++ (opsFeatures ++ opsLayers)) (launchContents m c) (Proc.devRef .tc main_v17) = _
  rw [StableHlo.after_append, StableHlo.after_append, layers_stage, rows_stage, cols_stage, diff_stage, prod_stage,
    opsFeatures_keeps_arg2, opsFeatures_keeps_arg3, opsFeatures_keeps_arg4, opsFeatures_keeps_arg5,
    gather_stage, opsGather_keeps_arg2, opsGather_keeps_arg3, opsGather_keeps_arg4, opsGather_keeps_arg5]
  rfl

theorem keeps_arg0 (m : (ℓ : Loc nD τ sig) → Buf (Elt F) ℓ) (c : Dev nD) :
    after (ops : List (HloOp τ sig (Elt F))) (launchContents m c) (Proc.devRef .tc main_arg0) = m ((c.tc : Thread nD τ).loc main_arg0) := by
  show after ((opsGather : List (HloOp τ sig (Elt F))) ++ (opsFeatures ++ opsLayers)) (launchContents m c) (Proc.devRef .tc main_arg0) = _
  rw [StableHlo.after_append, StableHlo.after_append, opsLayers_keeps_arg0, opsFeatures_keeps_arg0, opsGather_keeps_arg0]
theorem keeps_arg1 (m : (ℓ : Loc nD τ sig) → Buf (Elt F) ℓ) (c : Dev nD) :
    after (ops : List (HloOp τ sig (Elt F))) (launchContents m c) (Proc.devRef .tc main_arg1) = m ((c.tc : Thread nD τ).loc main_arg1) := by
  show after ((opsGather : List (HloOp τ sig (Elt F))) ++ (opsFeatures ++ opsLayers)) (launchContents m c) (Proc.devRef .tc main_arg1) = _
  rw [StableHlo.after_append, StableHlo.after_append, opsLayers_keeps_arg1, opsFeatures_keeps_arg1, opsGather_keeps_arg1]
theorem keeps_arg2 (m : (ℓ : Loc nD τ sig) → Buf (Elt F) ℓ) (c : Dev nD) :
    after (ops : List (HloOp τ sig (Elt F))) (launchContents m c) (Proc.devRef .tc main_arg2) = m ((c.tc : Thread nD τ).loc main_arg2) := by
  show after ((opsGather : List (HloOp τ sig (Elt F))) ++ (opsFeatures ++ opsLayers)) (launchContents m c) (Proc.devRef .tc main_arg2) = _
  rw [StableHlo.after_append, StableHlo.after_append, opsLayers_keeps_arg2, opsFeatures_keeps_arg2, opsGather_keeps_arg2]
theorem keeps_arg3 (m : (ℓ : Loc nD τ sig) → Buf (Elt F) ℓ) (c : Dev nD) :
    after (ops : List (HloOp τ sig (Elt F))) (launchContents m c) (Proc.devRef .tc main_arg3) = m ((c.tc : Thread nD τ).loc main_arg3) := by
  show after ((opsGather : List (HloOp τ sig (Elt F))) ++ (opsFeatures ++ opsLayers)) (launchContents m c) (Proc.devRef .tc main_arg3) = _
  rw [StableHlo.after_append, StableHlo.after_append, opsLayers_keeps_arg3, opsFeatures_keeps_arg3, opsGather_keeps_arg3]
theorem keeps_arg4 (m : (ℓ : Loc nD τ sig) → Buf (Elt F) ℓ) (c : Dev nD) :
    after (ops : List (HloOp τ sig (Elt F))) (launchContents m c) (Proc.devRef .tc main_arg4) = m ((c.tc : Thread nD τ).loc main_arg4) := by
  show after ((opsGather : List (HloOp τ sig (Elt F))) ++ (opsFeatures ++ opsLayers)) (launchContents m c) (Proc.devRef .tc main_arg4) = _
  rw [StableHlo.after_append, StableHlo.after_append, opsLayers_keeps_arg4, opsFeatures_keeps_arg4, opsGather_keeps_arg4]
theorem keeps_arg5 (m : (ℓ : Loc nD τ sig) → Buf (Elt F) ℓ) (c : Dev nD) :
    after (ops : List (HloOp τ sig (Elt F))) (launchContents m c) (Proc.devRef .tc main_arg5) = m ((c.tc : Thread nD τ).loc main_arg5) := by
  show after ((opsGather : List (HloOp τ sig (Elt F))) ++ (opsFeatures ++ opsLayers)) (launchContents m c) (Proc.devRef .tc main_arg5) = _
  rw [StableHlo.after_append, StableHlo.after_append, opsLayers_keeps_arg5, opsFeatures_keeps_arg5, opsGather_keeps_arg5]

/-- On every device, from any memory with zero counters: every weakly fair execution of @main terminates with the
    result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = val_main_v17 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v17).trans (value m c),
      (h c main_arg0).trans (keeps_arg0 m c),
      (h c main_arg1).trans (keeps_arg1 m c),
      (h c main_arg2).trans (keeps_arg2 m c),
      (h c main_arg3).trans (keeps_arg3 m c),
      (h c main_arg4).trans (keeps_arg4 m c),
      (h c main_arg5).trans (keeps_arg5 m c)⟩)
    (run_seq scopedRefs_eq scopedSems_eq defs main (fun _ => ops) main_eq (fun _ => ops_sub) m ρ
      (hfresh := fun _ op hop => (List.mem_append.mp hop).elim (opsGather_fresh op)
        (fun h => (List.mem_append.mp h).elim (opsFeatures_fresh op) (opsLayers_fresh op))))

end Cert.ReferenceIdeal.Stretches

end
-- ==== Proof.RefScores.lean ====
/-
  The reference's last stage is the scores of its gathered rows.

  The reference spreads the gathered rows along a new axis as row features `a` and column features `c`, forms
  `a - c` and `a * c`, joins the four along the feature axis, contracts the 3072 features with the first-layer weight,
  adds the bias, applies `tanh`, contracts with the second-layer weight and adds its bias. Read at an index: position
  `768 g + k` of the joined axis is feature `k` of group `g`; the contraction over all 3072 positions is the four group
  sums added left to right (`sum_features`); the rest is index bookkeeping of the broadcasts.
-/
import proofs.«156064_j13993003450895_1_alg».proof.Proof.RefRead
import proofs.«156064_j13993003450895_1_alg».proof.Proof.Spec

set_option maxRecDepth 16384

noncomputable section

namespace Cert.ReferenceIdeal.RefScores

open Cert.ReferenceIdeal Cert.ReferenceIdeal.ReadP Cert.Scores
open Idealize.ShloMosaic Idealize.ShloMosaic.TcCoe Idealize.ShloMosaic.ValueIdx Idealize.ShloMosaic.Pipeline

/-! ## The joined feature axis: position `768 g + k` is feature `k` of group `g` -/

theorem concat0 (A0 A1 A2 A3 : S4x128x128x768.Idx → EReal)
    (h : Shape.Concatenates (([⟨S4x128x128x768, A0⟩, ⟨S4x128x128x768, A1⟩, ⟨S4x128x128x768, A2⟩, ⟨S4x128x128x768, A3⟩] : List ((s : Shape) × (s.Idx → EReal))).map (·.1)) S4x128x128x3072 3)
    (b : Fin 4) (n n' : Fin 128) (k : Fin 768) (f : Fin 3072) (hf : f.val = 0 + k.val) :
    concatenate S4x128x128x3072 3 [⟨S4x128x128x768, A0⟩, ⟨S4x128x128x768, A1⟩, ⟨S4x128x128x768, A2⟩, ⟨S4x128x128x768, A3⟩] h (ix4 b n n' f) = A0 (ix4 b n n' k) :=
  concatenate_apply_piece 3 _ h _ 0 (by show (0 : ℕ) < 4; omega) S4x128x128x768 A0 rfl rfl 0 (by rfl) (ix4 b n n' k)
    (fun a ha => by
      match a with
      | ⟨0, _⟩ => rfl
      | ⟨1, _⟩ => rfl
      | ⟨2, _⟩ => rfl
      | ⟨3, _⟩ => exact absurd rfl ha)
    (by show 0 + k.val = f.val; omega)
theorem concat1 (A0 A1 A2 A3 : S4x128x128x768.Idx → EReal)
    (h : Shape.Concatenates (([⟨S4x128x128x768, A0⟩, ⟨S4x128x128x768, A1⟩, ⟨S4x128x128x768, A2⟩, ⟨S4x128x128x768, A3⟩] : List ((s : Shape) × (s.Idx → EReal))).map (·.1)) S4x128x128x3072 3)
    (b : Fin 4) (n n' : Fin 128) (k : Fin 768) (f : Fin 3072) (hf : f.val = 768 + k.val) :
    concatenate S4x128x128x3072 3 [⟨S4x128x128x768, A0⟩, ⟨S4x128x128x768, A1⟩, ⟨S4x128x128x768, A2⟩, ⟨S4x128x128x768, A3⟩] h (ix4 b n n' f) = A1 (ix4 b n n' k) :=
  concatenate_apply_piece 3 _ h _ 1 (by show (1 : ℕ) < 4; omega) S4x128x128x768 A1 rfl rfl 768 (by rfl) (ix4 b n n' k)
    (fun a ha => by
      match a with
      | ⟨0, _⟩ => rfl
      | ⟨1, _⟩ => rfl
      | ⟨2, _⟩ => rfl
      | ⟨3, _⟩ => exact absurd rfl ha)
    (by show 768 + k.val = f.val; omega)
theorem concat2 (A0 A1 A2 A3 : S4x128x128x768.Idx → EReal)
    (h : Shape.Concatenates (([⟨S4x128x128x768, A0⟩, ⟨S4x128x128x768, A1⟩, ⟨S4x128x128x768, A2⟩, ⟨S4x128x128x768, A3⟩] : List ((s : Shape) × (s.Idx → EReal))).map (·.1)) S4x128x128x3072 3)
    (b : Fin 4) (n n' : Fin 128) (k : Fin 768) (f : Fin 3072) (hf : f.val = 1536 + k.val) :
    concatenate S4x128x128x3072 3 [⟨S4x128x128x768, A0⟩, ⟨S4x128x128x768, A1⟩, ⟨S4x128x128x768, A2⟩, ⟨S4x128x128x768, A3⟩] h (ix4 b n n' f) = A2 (ix4 b n n' k) :=
  concatenate_apply_piece 3 _ h _ 2 (by show (2 : ℕ) < 4; omega) S4x128x128x768 A2 rfl rfl 1536 (by rfl) (ix4 b n n' k)
    (fun a ha => by
      match a with
      | ⟨0, _⟩ => rfl
      | ⟨1, _⟩ => rfl
      | ⟨2, _⟩ => rfl
      | ⟨3, _⟩ => exact absurd rfl ha)
    (by show 1536 + k.val = f.val; omega)
theorem concat3 (A0 A1 A2 A3 : S4x128x128x768.Idx → EReal)
    (h : Shape.Concatenates (([⟨S4x128x128x768, A0⟩, ⟨S4x128x128x768, A1⟩, ⟨S4x128x128x768, A2⟩, ⟨S4x128x128x768, A3⟩] : List ((s : Shape) × (s.Idx → EReal))).map (·.1)) S4x128x128x3072 3)
    (b : Fin 4) (n n' : Fin 128) (k : Fin 768) (f : Fin 3072) (hf : f.val = 2304 + k.val) :
    concatenate S4x128x128x3072 3 [⟨S4x128x128x768, A0⟩, ⟨S4x128x128x768, A1⟩, ⟨S4x128x128x768, A2⟩, ⟨S4x128x128x768, A3⟩] h (ix4 b n n' f) = A3 (ix4 b n n' k) :=
  concatenate_apply_piece 3 _ h _ 3 (by show (3 : ℕ) < 4; omega) S4x128x128x768 A3 rfl rfl 2304 (by rfl) (ix4 b n n' k)
    (fun a ha => by
      match a with
      | ⟨0, _⟩ => rfl
      | ⟨1, _⟩ => rfl
      | ⟨2, _⟩ => rfl
      | ⟨3, _⟩ => exact absurd rfl ha)
    (by show 2304 + k.val = f.val; omega)

variable (x0 : (⟨S4x256x768, .f32⟩ : BufTy).Contents (Elt Ideal)) (x1 : (⟨S4x128, .i32⟩ : BufTy).Contents (Elt Ideal))

/-- The reference's gathered rows. -/
abbrev conR : SCon.Idx → EReal := val_main_v1 (F := Ideal) x0 x1

/-- The row features and the column features at an index. -/
theorem rowFeat (b : Fin 4) (n n' : Fin 128) (k : Fin 768) :
    val_main_v3 (F := Ideal) x0 x1 (ix4 b n n' k) = conR x0 x1 (ix3 b n k) := by
  rw [val_main_v3_apply, val_main_v2_apply]
  exact congrArg (conR x0 x1) (funext fun a => Fin.ext (by
    match a with
    | ⟨0, _⟩ => rfl
    | ⟨1, _⟩ => rfl
    | ⟨2, _⟩ => rfl))
theorem colFeat (b : Fin 4) (n n' : Fin 128) (k : Fin 768) :
    val_main_v5 (F := Ideal) x0 x1 (ix4 b n n' k) = conR x0 x1 (ix3 b n' k) := by
  rw [val_main_v5_apply, val_main_v4_apply]
  exact congrArg (conR x0 x1) (funext fun a => Fin.ext (by
    match a with
    | ⟨0, _⟩ => rfl
    | ⟨1, _⟩ => rfl
    | ⟨2, _⟩ => rfl))

/-- The joined features at position `f`. -/
theorem feature_at (b : Fin 4) (n n' : Fin 128) (f : Fin 3072) :
    val_main_v8 (F := Ideal) x0 x1 (ix4 b n n' f) = featAt (conR x0 x1) b n n' f := by
  have hf := f.isLt
  obtain ⟨g, k, rfl⟩ : ∃ (g : Fin 4) (k : Fin 768), f = wrow g k :=
    ⟨⟨f.val / 768, by omega⟩, ⟨f.val % 768, Nat.mod_lt _ (by decide)⟩, Fin.ext (by show f.val = 768 * (f.val / 768) + f.val % 768; omega)⟩
  rw [featAt_wrow]
  unfold val_main_v8
  match g with
  | ⟨0, _⟩ =>
    rw [concat0 _ _ _ _ _ b n n' k _ (by show 768 * 0 + k.val = 0 + k.val; omega), rowFeat]
    rfl
  | ⟨1, _⟩ =>
    rw [concat1 _ _ _ _ _ b n n' k _ (by show 768 * 1 + k.val = 768 + k.val; omega), colFeat]
    rfl
  | ⟨2, _⟩ =>
    rw [concat2 _ _ _ _ _ b n n' k _ (by show 768 * 2 + k.val = 1536 + k.val; omega), val_main_v6_apply, rowFeat, colFeat]
    rfl
  | ⟨3, _⟩ =>
    rw [concat3 _ _ _ _ _ b n n' k _ (by show 768 * 3 + k.val = 2304 + k.val; omega), val_main_v7_apply, rowFeat, colFeat]
    rfl

variable (x2 : (⟨S3072x1024, .f32⟩ : BufTy).Contents (Elt Ideal)) (x3 : (⟨S1024, .f32⟩ : BufTy).Contents (Elt Ideal))
  (x4 : (⟨S1024x16, .f32⟩ : BufTy).Contents (Elt Ideal)) (x5 : (⟨S16, .f32⟩ : BufTy).Contents (Elt Ideal))

/-- The reference's hidden layer at an index. -/
theorem hidden_at (b : Fin 4) (n n' : Fin 128) (h : Fin 1024) :
    val_main_v13 (F := Ideal) x0 x1 x2 x3 (ix4 b n n' h) = Cert.Scores.hidden (conR x0 x1) x2 x3 b n n' h := by
  rw [val_main_v13_apply, val_main_v12_apply, val_main_v9_apply, val_main_v11_apply, val_main_v10_apply]
  unfold Cert.Scores.hidden
  rw [← sum_features]
  have e1 : ∀ k : Fin 3072, lidx_main_v9 (ix4 b n n' h) k = ix4 b n n' k := fun k => funext fun a => Fin.ext (by
    match a with
    | ⟨0, _⟩ => rfl
    | ⟨1, _⟩ => rfl
    | ⟨2, _⟩ => rfl
    | ⟨3, _⟩ => rfl)
  have e2 : ∀ k : Fin 3072, ridx_main_v9 (ix4 b n n' h) k = ix2 k h := fun k => funext fun a => Fin.ext (by
    match a with
    | ⟨0, _⟩ => rfl
    | ⟨1, _⟩ => rfl)
  have e3 : idx_main_v10 (idx_main_v11 (ix4 b n n' h)) = ix1 h := funext fun a => Fin.ext (by
    match a with
    | ⟨0, _⟩ => rfl)
  simp only [e1, e2, e3, feature_at]
  rfl

/-- THE REFERENCE'S RESULT: the scores of its gathered rows under the two layers. -/
theorem ref_scores : val_main_v17 (F := Ideal) x0 x1 x2 x3 x4 x5 = scores (conR x0 x1) x2 x3 x4 x5 := by
  funext i
  obtain ⟨b, n, n', l, rfl⟩ : ∃ (b : Fin 4) (n n' : Fin 128) (l : Fin 16), i = ix4 b n n' l := ⟨i 0, i 1, i 2, i 3, eq_ix4 i⟩
  rw [scores_apply, val_main_v17_apply, val_main_v14_apply, val_main_v16_apply, val_main_v15_apply]
  have e1 : ∀ h : Fin 1024, lidx_main_v14 (ix4 b n n' l) h = ix4 b n n' h := fun h => funext fun a => Fin.ext (by
    match a with
    | ⟨0, _⟩ => rfl
    | ⟨1, _⟩ => rfl
    | ⟨2, _⟩ => rfl
    | ⟨3, _⟩ => rfl)
  have e2 : ∀ h : Fin 1024, ridx_main_v14 (ix4 b n n' l) h = ix2 h l := fun h => funext fun a => Fin.ext (by
    match a with
    | ⟨0, _⟩ => rfl
    | ⟨1, _⟩ => rfl)
  have e3 : idx_main_v15 (idx_main_v16 (ix4 b n n' l)) = ix1 l := funext fun a => Fin.ext (by
    match a with
    | ⟨0, _⟩ => rfl)
  simp only [e1, e2, e3, hidden_at]
  rfl

end Cert.ReferenceIdeal.RefScores

end
-- ==== Proof.lean ====
/-
  The proof of `Cert.Claim` for the pairwise phrase classifier: the kernel and its reference compute the same scores.

  Both programs gather `con[b, n, :] = all_hidden[b, starts[b, n], :]` by the same host operations and then score
  every pair `(n, n')` of a batch: with `a = con[b, n, :]` and `c = con[b, n', :]`,
  `out[b, n, n', :] = tanh ([a, c, a - c, a * c] · W1 + b1) · W2 + b2`.
  The reference joins the four feature groups and contracts all 3072 features at once; the kernel, on a 4 x 4 x 4
  grid of 32 x 32 blocks of pairs, contracts each group of 768 against its own rows of `W1` and adds the four
  products. On the extended reals these agree at every input: splitting a finite sum into consecutive blocks needs
  only that addition is associative, and a change of float format is the identity. The precondition is not used.

  * The three frames: the two kernel programs by the launch for windows that share an array (the gathered rows are
    read by the row window and by the column window: each holds half of the array's share); the reference by its run.
  * `preserves`: the ideal pass rewrote nothing, so there is nothing to state.
  * `algebraic`: the kernel's result array after its run is the function `scores` of the gathered rows and the four
    parameters (block by block, the 64 blocks tiling the result); the reference's last stage is the same function of
    its own gathered rows; the two gathers are one term.
-/
import proofs.«156064_j13993003450895_1_alg».proof.Defs
import proofs.«156064_j13993003450895_1_alg».proof.Proof.Gen.Kernel
import proofs.«156064_j13993003450895_1_alg».proof.Proof.Gen.KernelIdeal
import proofs.«156064_j13993003450895_1_alg».proof.Proof.Gen.ReferenceIdeal
import proofs.«156064_j13993003450895_1_alg».proof.Proof.Gen.Pre_finite_inputs
import proofs.«156064_j13993003450895_1_alg».proof.Proof.KernelFrame
import proofs.«156064_j13993003450895_1_alg».proof.Proof.KernelIdealValue
import proofs.«156064_j13993003450895_1_alg».proof.Proof.RefRun
import proofs.«156064_j13993003450895_1_alg».proof.Proof.RefScores
import Idealize.ShloMosaic.Adequacy
import Idealize.ShloMosaic.Init

noncomputable section

namespace Cert.Proof

open Idealize.ShloMosaic Idealize.SL.Sem

/-- The two programs gather the rows by the same operations: one term. -/
theorem gathered_eq (x0 : (⟨Cert.KernelIdeal.S4x256x768, .f32⟩ : BufTy).Contents (Elt Ideal))
    (x1 : (⟨Cert.KernelIdeal.S4x128, .i32⟩ : BufTy).Contents (Elt Ideal)) :
    Cert.KernelIdeal.Entry.gathered (F := Ideal) x0 x1 = Cert.ReferenceIdeal.ReadP.val_main_v1 (F := Ideal) x0 x1 := rfl

theorem frame_k : Cert.frame_Kernel := fun m ρ _ => Cert.Kernel.Pairwise.frame m ρ

theorem frame_ki : Cert.frame_KernelIdeal := fun m ρ _ => Cert.KernelIdeal.Pairwise.frame m ρ

theorem frame_ri : Cert.frame_ReferenceIdeal := fun m ρ _ =>
  (θ_run Cert.ReferenceIdeal.defs _ _).mono (fun _ h c => (h c).2) (Cert.ReferenceIdeal.Stretches.run (F := Ideal) m ρ)

theorem preserves : Cert.preserves_Kernel_KernelIdeal := trivial

/-- From memories agreeing on the arguments both programs end at `scores` of the gathered rows and the parameters. -/
theorem algebraic : Cert.algebraic_KernelIdeal_ReferenceIdeal := by
  intro m ρ m' ρ' _ hagree
  refine ⟨fun c => Cert.KernelIdeal.PairValue.result m c, Cert.KernelIdeal.PairValue.run m ρ, ?_⟩
  refine (θ_run Cert.ReferenceIdeal.defs _ _).mono (fun _ h c => ⟨(h c).1.trans ?_, (h c).2⟩)
    (Cert.ReferenceIdeal.Stretches.run (F := Ideal) m' ρ')
  rw [(hagree c).1, (hagree c).2.1, (hagree c).2.2.1, (hagree c).2.2.2.1, (hagree c).2.2.2.2.1, (hagree c).2.2.2.2.2]
  rw [Cert.ReferenceIdeal.RefScores.ref_scores]
  show _ = Cert.Scores.scores (Cert.KernelIdeal.PairValue.conArr m c) (Cert.KernelIdeal.PairValue.w1Arg m c)
    (Cert.KernelIdeal.PairValue.b1Arg m c) (Cert.KernelIdeal.PairValue.w2Arg m c) (Cert.KernelIdeal.PairValue.b2Arg m c)
  rw [Cert.KernelIdeal.PairValue.conArr_eq, gathered_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
